-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x36864 : Shape := ⟨2, ![2048, 36864]⟩
abbrev S192x48 : Shape := ⟨2, ![192, 48]⟩
abbrev S256x2304 : Shape := ⟨2, ![256, 2304]⟩
abbrev S48x192 : Shape := ⟨2, ![48, 192]⟩
abbrev S2304x256 : Shape := ⟨2, ![2304, 256]⟩
abbrev S_ : Shape := ⟨0, ![]⟩

class Facts : Prop where
  bcast_S_S2048x36864 : S_.BroadcastsInDim S2048x36864 (![] : Fin 0 → Fin S2048x36864.rank)
  reducesTo_S2048x36864_S_d0_1 : S2048x36864.ReducesTo [0, 1] S_
  h_S_ : 0 < S_.numel
  bcast_S_S192x48 : S_.BroadcastsInDim S192x48 (![] : Fin 0 → Fin S192x48.rank)
  reducesTo_S192x48_S_d0_1 : S192x48.ReducesTo [0, 1] S_
  bcast_S_S256x2304 : S_.BroadcastsInDim S256x2304 (![] : Fin 0 → Fin S256x2304.rank)
  reducesTo_S256x2304_S_d0_1 : S256x2304.ReducesTo [0, 1] S_
  bcast_S_S48x192 : S_.BroadcastsInDim S48x192 (![] : Fin 0 → Fin S48x192.rank)
  reducesTo_S48x192_S_d0_1 : S48x192.ReducesTo [0, 1] S_
  bcast_S_S2304x256 : S_.BroadcastsInDim S2304x256 (![] : Fin 0 → Fin S2304x256.rank)
  reducesTo_S2304x256_S_d0_1 : S2304x256.ReducesTo [0, 1] S_

variable [Facts]

def fn_part1 {F : FTy → Type} [FloatOps F] (main_arg4 : FVec F S48x192 .f32) (main_arg5 : FVec F S48x192 .f32) (main_arg6 : FVec F S2304x256 .f32) (main_v13 : IVec S_ 1) (main_v16 : IVec S256x2304 1) : IVec S_ 1 :=
  let main_c_5 : IVec S_ 1 := constantI S_ 1 1#1
  let main_v17 : IVec S_ 1 := (fun x v => Host.reduce IntOp.andi x v reducesTo_S256x2304_S_d0_1 h_S_) main_v16 main_c_5
  let main_v18 : IVec S_ 1 := andi main_v13 main_v17
  let main_v19 : FVec F S48x192 .f32 := Host.absf main_arg4
  let main_cst_6 : FVec F S_ .f32 := constant S_ .f32 0x7F800000#32
  let main_v20 : FVec F S48x192 .f32 := broadcastInDim S48x192 ![] bcast_S_S48x192 main_cst_6
  let main_v21 : IVec S48x192 1 := cmpf .olt main_v19 main_v20
  let main_c_7 : IVec S_ 1 := constantI S_ 1 1#1
  let main_v22 : IVec S_ 1 := (fun x v => Host.reduce IntOp.andi x v reducesTo_S48x192_S_d0_1 h_S_) main_v21 main_c_7
  let main_v23 : IVec S_ 1 := andi main_v18 main_v22
  let main_v24 : FVec F S48x192 .f32 := Host.absf main_arg5
  let main_cst_8 : FVec F S_ .f32 := constant S_ .f32 0x7F800000#32
  let main_v25 : FVec F S48x192 .f32 := broadcastInDim S48x192 ![] bcast_S_S48x192 main_cst_8
  let main_v26 : IVec S48x192 1 := cmpf .olt main_v24 main_v25
  let main_c_9 : IVec S_ 1 := constantI S_ 1 1#1
  let main_v27 : IVec S_ 1 := (fun x v => Host.reduce IntOp.andi x v reducesTo_S48x192_S_d0_1 h_S_) main_v26 main_c_9
  let main_v28 : IVec S_ 1 := andi main_v23 main_v27
  let main_v29 : FVec F S2304x256 .f32 := Host.absf main_arg6
  let main_cst_10 : FVec F S_ .f32 := constant S_ .f32 0x7F800000#32
  let main_v30 : FVec F S2304x256 .f32 := broadcastInDim S2304x256 ![] bcast_S_S2304x256 main_cst_10
  let main_v31 : IVec S2304x256 1 := cmpf .olt main_v29 main_v30
  let main_c_11 : IVec S_ 1 := constantI S_ 1 1#1
  let main_v32 : IVec S_ 1 := (fun x v => Host.reduce IntOp.andi x v reducesTo_S2304x256_S_d0_1 h_S_) main_v31 main_c_11
  let main_v33 : IVec S_ 1 := andi main_v28 main_v32
  main_v33

def fn {F : FTy → Type} [FloatOps F] (main_arg0 : FVec F S2048x36864 .f32) (main_arg1 : FVec F S192x48 .f32) (main_arg2 : FVec F S192x48 .f32) (main_arg3 : FVec F S256x2304 .f32) (main_arg4 : FVec F S48x192 .f32) (main_arg5 : FVec F S48x192 .f32) (main_arg6 : FVec F S2304x256 .f32) : IVec S_ 1 :=
  let main_v0 : FVec F S2048x36864 .f32 := Host.absf main_arg0
  let main_cst : FVec F S_ .f32 := constant S_ .f32 0x7F800000#32
  let main_v1 : FVec F S2048x36864 .f32 := broadcastInDim S2048x36864 ![] bcast_S_S2048x36864 main_cst
  let main_v2 : IVec S2048x36864 1 := cmpf .olt main_v0 main_v1
  let main_c : IVec S_ 1 := constantI S_ 1 1#1
  let main_v3 : IVec S_ 1 := (fun x v => Host.reduce IntOp.andi x v reducesTo_S2048x36864_S_d0_1 h_S_) main_v2 main_c
  let main_v4 : FVec F S192x48 .f32 := Host.absf main_arg1
  let main_cst_0 : FVec F S_ .f32 := constant S_ .f32 0x7F800000#32
  let main_v5 : FVec F S192x48 .f32 := broadcastInDim S192x48 ![] bcast_S_S192x48 main_cst_0
  let main_v6 : IVec S192x48 1 := cmpf .olt main_v4 main_v5
  let main_c_1 : IVec S_ 1 := constantI S_ 1 1#1
  let main_v7 : IVec S_ 1 := (fun x v => Host.reduce IntOp.andi x v reducesTo_S192x48_S_d0_1 h_S_) main_v6 main_c_1
  let main_v8 : IVec S_ 1 := andi main_v3 main_v7
  let main_v9 : FVec F S192x48 .f32 := Host.absf main_arg2
  let main_cst_2 : FVec F S_ .f32 := constant S_ .f32 0x7F800000#32
  let main_v10 : FVec F S192x48 .f32 := broadcastInDim S192x48 ![] bcast_S_S192x48 main_cst_2
  let main_v11 : IVec S192x48 1 := cmpf .olt main_v9 main_v10
  let main_c_3 : IVec S_ 1 := constantI S_ 1 1#1
  let main_v12 : IVec S_ 1 := (fun x v => Host.reduce IntOp.andi x v reducesTo_S192x48_S_d0_1 h_S_) main_v11 main_c_3
  let main_v13 : IVec S_ 1 := andi main_v8 main_v12
  let main_v14 : FVec F S256x2304 .f32 := Host.absf main_arg3
  let main_cst_4 : FVec F S_ .f32 := constant S_ .f32 0x7F800000#32
  let main_v15 : FVec F S256x2304 .f32 := broadcastInDim S256x2304 ![] bcast_S_S256x2304 main_cst_4
  let main_v16 : IVec S256x2304 1 := cmpf .olt main_v14 main_v15
  fn_part1 (F := F) main_arg4 main_arg5 main_arg6 main_v13 main_v16
-- ==== Kernel.lean ====
abbrev S2048x36864 : Shape := ⟨2, ![2048, 36864]⟩
abbrev S192x48 : Shape := ⟨2, ![192, 48]⟩
abbrev S256x2304 : Shape := ⟨2, ![256, 2304]⟩
abbrev S48x192 : Shape := ⟨2, ![48, 192]⟩
abbrev S2304x256 : Shape := ⟨2, ![2304, 256]⟩
abbrev S48x48x256 : Shape := ⟨3, ![48, 48, 256]⟩
abbrev S_ : Shape := ⟨0, ![]⟩
abbrev S256x48x48 : Shape := ⟨3, ![256, 48, 48]⟩
abbrev S192 : Shape := ⟨1, ![192]⟩
abbrev S192x1 : Shape := ⟨2, ![192, 1]⟩
abbrev S32x36864 : Shape := ⟨2, ![32, 36864]⟩
abbrev S6144x192 : Shape := ⟨2, ![6144, 192]⟩
abbrev S6144x48 : Shape := ⟨2, ![6144, 48]⟩
abbrev S32x192x48 : Shape := ⟨3, ![32, 192, 48]⟩
abbrev S32x48x192 : Shape := ⟨3, ![32, 48, 192]⟩
abbrev S1536x192 : Shape := ⟨2, ![1536, 192]⟩
abbrev S1536x48 : Shape := ⟨2, ![1536, 48]⟩
abbrev S32x2304 : Shape := ⟨2, ![32, 2304]⟩
abbrev S32x256 : Shape := ⟨2, ![32, 256]⟩
abbrev S32 : Shape := ⟨1, ![32]⟩
abbrev S32x1 : Shape := ⟨2, ![32, 1]⟩

abbrev nBuf : Space → Nat
  | .hbm => 55
  | .vmem => 10
  | .smem => 0
  | _ => 0

abbrev bufTy : (tb : Table) → Fin (tcTables nBuf tb) → BufTy
  | .hbm, ⟨0, _⟩ => ⟨S2048x36864, .f32⟩
  | .hbm, ⟨1, _⟩ => ⟨S192x48, .f32⟩
  | .hbm, ⟨2, _⟩ => ⟨S192x48, .f32⟩
  | .hbm, ⟨3, _⟩ => ⟨S256x2304, .f32⟩
  | .hbm, ⟨4, _⟩ => ⟨S48x192, .f32⟩
  | .hbm, ⟨5, _⟩ => ⟨S48x192, .f32⟩
  | .hbm, ⟨6, _⟩ => ⟨S2304x256, .f32⟩
  | .hbm, ⟨7, _⟩ => ⟨S48x48x256, .f32⟩
  | .hbm, ⟨8, _⟩ => ⟨S48x48x256, .f32⟩
  | .hbm, ⟨9, _⟩ => ⟨S2304x256, .f32⟩
  | .hbm, ⟨10, _⟩ => ⟨S2304x256, .bf16⟩
  | .hbm, ⟨11, _⟩ => ⟨S_, .f32⟩
  | .hbm, ⟨12, _⟩ => ⟨S256x2304, .f32⟩
  | .hbm, ⟨13, _⟩ => ⟨S256x2304, .f32⟩
  | .hbm, ⟨14, _⟩ => ⟨S256x48x48, .f32⟩
  | .hbm, ⟨15, _⟩ => ⟨S256x48x48, .f32⟩
  | .hbm, ⟨16, _⟩ => ⟨S256x2304, .f32⟩
  | .hbm, ⟨17, _⟩ => ⟨S256x2304, .bf16⟩
  | .hbm, ⟨18, _⟩ => ⟨S_, .f32⟩
  | .hbm, ⟨19, _⟩ => ⟨S192, .f32⟩
  | .hbm, ⟨20, _⟩ => ⟨S_, .f32⟩
  | .hbm, ⟨21, _⟩ => ⟨S192, .f32⟩
  | .hbm, ⟨22, _⟩ => ⟨S192, .f32⟩
  | .hbm, ⟨23, _⟩ => ⟨S192x1, .f32⟩
  | .hbm, ⟨24, _⟩ => ⟨S192x48, .f32⟩
  | .hbm, ⟨25, _⟩ => ⟨S192x48, .f32⟩
  | .hbm, ⟨26, _⟩ => ⟨S192x48, .f32⟩
  | .hbm, ⟨27, _⟩ => ⟨S_, .f32⟩
  | .hbm, ⟨28, _⟩ => ⟨S192, .f32⟩
  | .hbm, ⟨29, _⟩ => ⟨S192x1, .f32⟩
  | .hbm, ⟨30, _⟩ => ⟨S192x48, .f32⟩
  | .hbm, ⟨31, _⟩ => ⟨S192x48, .f32⟩
  | .hbm, ⟨32, _⟩ => ⟨S_, .f32⟩
  | .hbm, ⟨33, _⟩ => ⟨S192, .f32⟩
  | .hbm, ⟨34, _⟩ => ⟨S_, .f32⟩
  | .hbm, ⟨35, _⟩ => ⟨S192, .f32⟩
  | .hbm, ⟨36, _⟩ => ⟨S192, .f32⟩
  | .hbm, ⟨37, _⟩ => ⟨S192x1, .f32⟩
  | .hbm, ⟨38, _⟩ => ⟨S192x48, .f32⟩
  | .hbm, ⟨39, _⟩ => ⟨S192x48, .f32⟩
  | .hbm, ⟨40, _⟩ => ⟨S192x48, .f32⟩
  | .hbm, ⟨41, _⟩ => ⟨S_, .f32⟩
  | .hbm, ⟨42, _⟩ => ⟨S192, .f32⟩
  | .hbm, ⟨43, _⟩ => ⟨S192x1, .f32⟩
  | .hbm, ⟨44, _⟩ => ⟨S192x48, .f32⟩
  | .hbm, ⟨45, _⟩ => ⟨S192x48, .f32⟩
  | .hbm, ⟨46, _⟩ => ⟨S192x48, .f32⟩
  | .hbm, ⟨47, _⟩ => ⟨S192x48, .bf16⟩
  | .hbm, ⟨48, _⟩ => ⟨S192x48, .f32⟩
  | .hbm, ⟨49, _⟩ => ⟨S192x48, .bf16⟩
  | .hbm, ⟨50, _⟩ => ⟨S48x192, .f32⟩
  | .hbm, ⟨51, _⟩ => ⟨S48x192, .bf16⟩
  | .hbm, ⟨52, _⟩ => ⟨S48x192, .f32⟩
  | .hbm, ⟨53, _⟩ => ⟨S48x192, .bf16⟩
  | .hbm, ⟨54, _⟩ => ⟨S2048x36864, .f32⟩
  | .local _ .vmem, ⟨0, _⟩ => ⟨S32x36864, .f32⟩
  | .local _ .vmem, ⟨1, _⟩ => ⟨S32x36864, .f32⟩
  | .local _ .vmem, ⟨2, _⟩ => ⟨S192x48, .bf16⟩
  | .local _ .vmem, ⟨3, _⟩ => ⟨S192x48, .bf16⟩
  | .local _ .vmem, ⟨4, _⟩ => ⟨S2304x256, .bf16⟩
  | .local _ .vmem, ⟨5, _⟩ => ⟨S256x2304, .bf16⟩
  | .local _ .vmem, ⟨6, _⟩ => ⟨S48x192, .bf16⟩
  | .local _ .vmem, ⟨7, _⟩ => ⟨S48x192, .bf16⟩
  | .local _ .vmem, ⟨8, _⟩ => ⟨S32x36864, .f32⟩
  | .local _ .vmem, ⟨9, _⟩ => ⟨S32x36864, .f32⟩
  | _, _ => ⟨S2048x36864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x36864 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x48 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192x48 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2304x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S48x192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x36864 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S2304x256_S48x48x256 : S2304x256.ShapeCasts S48x48x256
  transposes_S48x48x256_S48x48x256_1_0_2 : S48x48x256.Transposes [1, 0, 2] S48x48x256
  shapeCasts_S48x48x256_S2304x256 : S48x48x256.ShapeCasts S2304x256
  bitsLt_bf16_f32 : FTy.bits .bf16 < FTy.bits .f32
  bcast_S_S256x2304 : S_.BroadcastsInDim S256x2304 (![] : Fin 0 → Fin S256x2304.rank)
  shapeCasts_S256x2304_S256x48x48 : S256x2304.ShapeCasts S256x48x48
  transposes_S256x48x48_S256x48x48_0_2_1 : S256x48x48.Transposes [0, 2, 1] S256x48x48
  shapeCasts_S256x48x48_S256x2304 : S256x48x48.ShapeCasts S256x2304
  reducesTo_S192x48_S192_d1 : S192x48.ReducesTo [1] S192
  h_S_ : 0 < S_.numel
  bcast_S_S192 : S_.BroadcastsInDim S192 (![] : Fin 0 → Fin S192.rank)
  bcast_S192_S192x1_0 : S192.BroadcastsInDim S192x1 (![0] : Fin 1 → Fin S192x1.rank)
  bcast_S192x1_S192x48_0_1 : S192x1.BroadcastsInDim S192x48 (![0, 1] : Fin 2 → Fin S192x48.rank)
  transposes_S48x192_S192x48_1_0 : S48x192.Transposes [1, 0] S192x48
  transposes_S192x48_S48x192_1_0 : S192x48.Transposes [1, 0] S48x192
  inb_S32x36864_S32x36864_0_0 : ∀ a, (![0, 0] : Fin 2 → Nat) a + S32x36864.size a ≤ S32x36864.size a
  h_S32x36864 : 0 < S32x36864.numel
  shapeCasts_S32x36864_S6144x192 : S32x36864.ShapeCasts S6144x192
  inb_S192x48_S192x48_0_0 : ∀ a, (![0, 0] : Fin 2 → Nat) a + S192x48.size a ≤ S192x48.size a
  h_S192x48 : 0 < S192x48.numel
  shapeCasts_S192x48_S192x48 : S192x48.ShapeCasts S192x48
  shapeCasts_S6144x48_S32x192x48 : S6144x48.ShapeCasts S32x192x48
  transposes_S32x192x48_p0_2_1_S32x48x192 : S32x192x48.Transposes [0, 2, 1] S32x48x192
  shapeCasts_S32x48x192_S1536x192 : S32x48x192.ShapeCasts S1536x192
  shapeCasts_S1536x48_S32x2304 : S1536x48.ShapeCasts S32x2304
  inb_S2304x256_S2304x256_0_0 : ∀ a, (![0, 0] : Fin 2 → Nat) a + S2304x256.size a ≤ S2304x256.size a
  h_S2304x256 : 0 < S2304x256.numel
  shapeCasts_S2304x256_S2304x256 : S2304x256.ShapeCasts S2304x256
  reduces_S32x256_S32 : S32x256.Reduces [1] S32
  shapeCasts_S32_S32x1 : S32.ShapeCasts S32x1
  broadcasts_S32x1_S32x256 : S32x1.Broadcasts S32x256
  inb_S256x2304_S256x2304_0_0 : ∀ a, (![0, 0] : Fin 2 → Nat) a + S256x2304.size a ≤ S256x2304.size a
  h_S256x2304 : 0 < S256x2304.numel
  shapeCasts_S256x2304_S256x2304 : S256x2304.ShapeCasts S256x2304
  shapeCasts_S32x2304_S1536x48 : S32x2304.ShapeCasts S1536x48
  inb_S48x192_S48x192_0_0 : ∀ a, (![0, 0] : Fin 2 → Nat) a + S48x192.size a ≤ S48x192.size a
  h_S48x192 : 0 < S48x192.numel
  shapeCasts_S48x192_S48x192 : S48x192.ShapeCasts S48x192
  shapeCasts_S1536x192_S32x48x192 : S1536x192.ShapeCasts S32x48x192
  transposes_S32x48x192_p0_2_1_S32x192x48 : S32x48x192.Transposes [0, 2, 1] S32x192x48
  shapeCasts_S32x192x48_S6144x48 : S32x192x48.ShapeCasts S6144x48
  shapeCasts_S6144x192_S32x36864 : S6144x192.ShapeCasts S32x36864
  dot_S6144x192_S192x48_S6144x48_1_0_0_1_n_n_wf : DotDims.WF S6144x192 S192x48 S6144x48 [1] [0] [0] [1] [] []
  dot_S1536x192_S192x48_S1536x48_1_0_0_1_n_n_wf : DotDims.WF S1536x192 S192x48 S1536x48 [1] [0] [0] [1] [] []
  dot_S32x2304_S2304x256_S32x256_1_0_0_1_n_n_wf : DotDims.WF S32x2304 S2304x256 S32x256 [1] [0] [0] [1] [] []
  dot_S32x256_S256x2304_S32x2304_1_0_0_1_n_n_wf : DotDims.WF S32x256 S256x2304 S32x2304 [1] [0] [0] [1] [] []
  dot_S1536x48_S48x192_S1536x192_1_0_0_1_n_n_wf : DotDims.WF S1536x48 S48x192 S1536x192 [1] [0] [0] [1] [] []
  dot_S6144x48_S48x192_S6144x192_1_0_0_1_n_n_wf : DotDims.WF S6144x48 S48x192 S6144x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x36864.size a ≤ S2048x36864.size a
  hwx0_0 : ∀ i : grid0.Coords, EltTy.bits .f32 = 32 ∨ (Rect.block (s := S2048x36864) S32x36864.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x48.size a ≤ S192x48.size a
  hwx0_1 : ∀ i : grid0.Coords, EltTy.bits .bf16 = 32 ∨ (Rect.block (s := S192x48) S192x48.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x48.size a ≤ S192x48.size a
  hwx0_2 : ∀ i : grid0.Coords, EltTy.bits .bf16 = 32 ∨ (Rect.block (s := S192x48) S192x48.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2304x256.size a ≤ S2304x256.size a
  hwx0_3 : ∀ i : grid0.Coords, EltTy.bits .bf16 = 32 ∨ (Rect.block (s := S2304x256) S2304x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x2304.size a ≤ S256x2304.size a
  hwx0_4 : ∀ i : grid0.Coords, EltTy.bits .bf16 = 32 ∨ (Rect.block (s := S256x2304) S256x2304.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S48x192.size a ≤ S48x192.size a
  hwx0_5 : ∀ i : grid0.Coords, EltTy.bits .bf16 = 32 ∨ (Rect.block (s := S48x192) S48x192.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S48x192.size a ≤ S48x192.size a
  hwx0_6 : ∀ i : grid0.Coords, EltTy.bits .bf16 = 32 ∨ (Rect.block (s := S48x192) S48x192.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x36864.size a ≤ S2048x36864.size a
  hwx0_7 : ∀ i : grid0.Coords, EltTy.bits .f32 = 32 ∨ (Rect.block (s := S2048x36864) S32x36864.size (cc0_transform_7 i) (hinb0_7 i)).WholeWords (EltTy.packing .f32)

variable [Facts₀]

def dot_S6144x192_S192x48_S6144x48_1_0_0_1_n_n : DotDims S6144x192 S192x48 S6144x48 where
  lhsContracting := [1]
  rhsContracting := [0]
  lhsNonContracting := [0]
  rhsNonContracting := [1]
  lhsBatch := []
  rhsBatch := []
  wf := dot_S6144x192_S192x48_S6144x48_1_0_0_1_n_n_wf
def dot_S1536x192_S192x48_S1536x48_1_0_0_1_n_n : DotDims S1536x192 S192x48 S1536x48 where
  lhsContracting := [1]
  rhsContracting := [0]
  lhsNonContracting := [0]
  rhsNonContracting := [1]
  lhsBatch := []
  rhsBatch := []
  wf := dot_S1536x192_S192x48_S1536x48_1_0_0_1_n_n_wf
def dot_S32x2304_S2304x256_S32x256_1_0_0_1_n_n : DotDims S32x2304 S2304x256 S32x256 where
  lhsContracting := [1]
  rhsContracting := [0]
  lhsNonContracting := [0]
  rhsNonContracting := [1]
  lhsBatch := []
  rhsBatch := []
  wf := dot_S32x2304_S2304x256_S32x256_1_0_0_1_n_n_wf
def dot_S32x256_S256x2304_S32x2304_1_0_0_1_n_n : DotDims S32x256 S256x2304 S32x2304 where
  lhsContracting := [1]
  rhsContracting := [0]
  lhsNonContracting := [0]
  rhsNonContracting := [1]
  lhsBatch := []
  rhsBatch := []
  wf := dot_S32x256_S256x2304_S32x2304_1_0_0_1_n_n_wf
def dot_S1536x48_S48x192_S1536x192_1_0_0_1_n_n : DotDims S1536x48 S48x192 S1536x192 where
  lhsContracting := [1]
  rhsContracting := [0]
  lhsNonContracting := [0]
  rhsNonContracting := [1]
  lhsBatch := []
  rhsBatch := []
  wf := dot_S1536x48_S48x192_S1536x192_1_0_0_1_n_n_wf
def dot_S6144x48_S48x192_S6144x192_1_0_0_1_n_n : DotDims S6144x48 S48x192 S6144x192 where
  lhsContracting := [1]
  rhsContracting := [0]
  lhsNonContracting := [0]
  rhsNonContracting := [1]
  lhsBatch := []
  rhsBatch := []
  wf := dot_S6144x48_S48x192_S6144x192_1_0_0_1_n_n_wf

abbrev win0_0 : Pipeline.Window sig grid0 :=
  Pipeline.Window.ofSpec (Memref.whole main_arg0) S32x36864.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S192x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S192x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2304x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x2304.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S48x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S48x192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S32x36864.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x36864 : Shape := ⟨2, ![2048, 36864]⟩
abbrev S192x48 : Shape := ⟨2, ![192, 48]⟩
abbrev S256x2304 : Shape := ⟨2, ![256, 2304]⟩
abbrev S48x192 : Shape := ⟨2, ![48, 192]⟩
abbrev S2304x256 : Shape := ⟨2, ![2304, 256]⟩
abbrev S48x1x192x1 : Shape := ⟨4, ![48, 1, 192, 1]⟩
abbrev S1x48x1x192 : Shape := ⟨4, ![1, 48, 1, 192]⟩
abbrev S48x48x192x192 : Shape := ⟨4, ![48, 48, 192, 192]⟩
abbrev S2304x36864 : Shape := ⟨2, ![2304, 36864]⟩
abbrev S36864x2048 : Shape := ⟨2, ![36864, 2048]⟩
abbrev S2304x2048 : Shape := ⟨2, ![2304, 2048]⟩
abbrev S256x2048 : Shape := ⟨2, ![256, 2048]⟩
abbrev S2048x256 : Shape := ⟨2, ![2048, 256]⟩
abbrev S_ : Shape := ⟨0, ![]⟩
abbrev S192 : Shape := ⟨1, ![192]⟩
abbrev S192x1 : Shape := ⟨2, ![192, 1]⟩
abbrev S192x1x48x1 : Shape := ⟨4, ![192, 1, 48, 1]⟩
abbrev S1x192x1x48 : Shape := ⟨4, ![1, 192, 1, 48]⟩
abbrev S192x192x48x48 : Shape := ⟨4, ![192, 192, 48, 48]⟩
abbrev S36864x2304 : Shape := ⟨2, ![36864, 2304]⟩
abbrev S2048 : Shape := ⟨1, ![2048]⟩
abbrev S2048x1 : Shape := ⟨2, ![2048, 1]⟩
abbrev S2048x2304 : Shape := ⟨2, ![2048, 2304]⟩

abbrev nBuf : Space → Nat
  | .hbm => 72
  | .vmem => 0
  | .smem => 0
  | _ => 0

abbrev bufTy : (tb : Table) → Fin (tcTables nBuf tb) → BufTy
  | .hbm, ⟨0, _⟩ => ⟨S2048x36864, .f32⟩
  | .hbm, ⟨1, _⟩ => ⟨S192x48, .f32⟩
  | .hbm, ⟨2, _⟩ => ⟨S192x48, .f32⟩
  | .hbm, ⟨3, _⟩ => ⟨S256x2304, .f32⟩
  | .hbm, ⟨4, _⟩ => ⟨S48x192, .f32⟩
  | .hbm, ⟨5, _⟩ => ⟨S48x192, .f32⟩
  | .hbm, ⟨6, _⟩ => ⟨S2304x256, .f32⟩
  | .hbm, ⟨7, _⟩ => ⟨S48x1x192x1, .f32⟩
  | .hbm, ⟨8, _⟩ => ⟨S1x48x1x192, .f32⟩
  | .hbm, ⟨9, _⟩ => ⟨S48x48x192x192, .f32⟩
  | .hbm, ⟨10, _⟩ => ⟨S48x48x192x192, .f32⟩
  | .hbm, ⟨11, _⟩ => ⟨S48x48x192x192, .f32⟩
  | .hbm, ⟨12, _⟩ => ⟨S2304x36864, .f32⟩
  | .hbm, ⟨13, _⟩ => ⟨S256x2304, .f32⟩
  | .hbm, ⟨14, _⟩ => ⟨S36864x2048, .f32⟩
  | .hbm, ⟨15, _⟩ => ⟨S2304x2048, .f32⟩
  | .hbm, ⟨16, _⟩ => ⟨S256x2048, .f32⟩
  | .hbm, ⟨17, _⟩ => ⟨S2048x256, .f32⟩
  | .hbm, ⟨18, _⟩ => ⟨S_, .f32⟩
  | .hbm, ⟨19, _⟩ => ⟨S192, .f32⟩
  | .hbm, ⟨20, _⟩ => ⟨S_, .f32⟩
  | .hbm, ⟨21, _⟩ => ⟨S192, .f32⟩
  | .hbm, ⟨22, _⟩ => ⟨S192, .f32⟩
  | .hbm, ⟨23, _⟩ => ⟨S192x1, .f32⟩
  | .hbm, ⟨24, _⟩ => ⟨S192x48, .f32⟩
  | .hbm, ⟨25, _⟩ => ⟨S192x48, .f32⟩
  | .hbm, ⟨26, _⟩ => ⟨S192x48, .f32⟩
  | .hbm, ⟨27, _⟩ => ⟨S_, .f32⟩
  | .hbm, ⟨28, _⟩ => ⟨S192, .f32⟩
  | .hbm, ⟨29, _⟩ => ⟨S192x1, .f32⟩
  | .hbm, ⟨30, _⟩ => ⟨S192x48, .f32⟩
  | .hbm, ⟨31, _⟩ => ⟨S192x48, .f32⟩
  | .hbm, ⟨32, _⟩ => ⟨S_, .f32⟩
  | .hbm, ⟨33, _⟩ => ⟨S192, .f32⟩
  | .hbm, ⟨34, _⟩ => ⟨S_, .f32⟩
  | .hbm, ⟨35, _⟩ => ⟨S192, .f32⟩
  | .hbm, ⟨36, _⟩ => ⟨S192, .f32⟩
  | .hbm, ⟨37, _⟩ => ⟨S192x1, .f32⟩
  | .hbm, ⟨38, _⟩ => ⟨S192x48, .f32⟩
  | .hbm, ⟨39, _⟩ => ⟨S192x48, .f32⟩
  | .hbm, ⟨40, _⟩ => ⟨S192x48, .f32⟩
  | .hbm, ⟨41, _⟩ => ⟨S_, .f32⟩
  | .hbm, ⟨42, _⟩ => ⟨S192, .f32⟩
  | .hbm, ⟨43, _⟩ => ⟨S192x1, .f32⟩
  | .hbm, ⟨44, _⟩ => ⟨S192x48, .f32⟩
  | .hbm, ⟨45, _⟩ => ⟨S192x48, .f32⟩
  | .hbm, ⟨46, _⟩ => ⟨S192x1x48x1, .f32⟩
  | .hbm, ⟨47, _⟩ => ⟨S1x192x1x48, .f32⟩
  | .hbm, ⟨48, _⟩ => ⟨S192x192x48x48, .f32⟩
  | .hbm, ⟨49, _⟩ => ⟨S192x192x48x48, .f32⟩
  | .hbm, ⟨50, _⟩ => ⟨S192x192x48x48, .f32⟩
  | .hbm, ⟨51, _⟩ => ⟨S36864x2304, .f32⟩
  | .hbm, ⟨52, _⟩ => ⟨S_, .f32⟩
  | .hbm, ⟨53, _⟩ => ⟨S2048, .f32⟩
  | .hbm, ⟨54, _⟩ => ⟨S_, .f32⟩
  | .hbm, ⟨55, _⟩ => ⟨S2048, .f32⟩
  | .hbm, ⟨56, _⟩ => ⟨S2048, .f32⟩
  | .hbm, ⟨57, _⟩ => ⟨S2048x1, .f32⟩
  | .hbm, ⟨58, _⟩ => ⟨S2048x256, .f32⟩
  | .hbm, ⟨59, _⟩ => ⟨S2048x256, .f32⟩
  | .hbm, ⟨60, _⟩ => ⟨S2048x256, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x256, .f32⟩
  | .hbm, ⟨65, _⟩ => ⟨S2048x256, .f32⟩
  | .hbm, ⟨66, _⟩ => ⟨S_, .f32⟩
  | .hbm, ⟨67, _⟩ => ⟨S256x2304, .f32⟩
  | .hbm, ⟨68, _⟩ => ⟨S256x2304, .f32⟩
  | .hbm, ⟨69, _⟩ => ⟨S2048x2304, .f32⟩
  | .hbm, ⟨70, _⟩ => ⟨S2304x36864, .f32⟩
  | .hbm, ⟨71, _⟩ => ⟨S2048x36864, .f32⟩
  | _, _ => ⟨S2048x36864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call2_cst : Ref sig .tc := ⟨.hbm, 66, rfl⟩
abbrev main_call2_v0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩

abbrev nD : Nat := 1
abbrev τ : Topo := Topo.v7x

variable {F : FTy → Type} [FloatOps F]

class Facts₀ : Prop where
  bcast_S48x192_S48x1x192x1_0_2 : S48x192.BroadcastsInDim S48x1x192x1 (![0, 2] : Fin 2 → Fin S48x1x192x1.rank)
  bcast_S48x192_S1x48x1x192_1_3 : S48x192.BroadcastsInDim S1x48x1x192 (![1, 3] : Fin 2 → Fin S1x48x1x192.rank)
  bcast_S48x1x192x1_S48x48x192x192_0_1_2_3 : S48x1x192x1.BroadcastsInDim S48x48x192x192 (![0, 1, 2, 3] : Fin 4 → Fin S48x48x192x192.rank)
  bcast_S1x48x1x192_S48x48x192x192_0_1_2_3 : S1x48x1x192.BroadcastsInDim S48x48x192x192 (![0, 1, 2, 3] : Fin 4 → Fin S48x48x192x192.rank)
  shapeCasts_S48x48x192x192_S2304x36864 : S48x48x192x192.ShapeCasts S2304x36864
  transposes_S2304x256_S256x2304_1_0 : S2304x256.Transposes [1, 0] S256x2304
  transposes_S2048x36864_S36864x2048_1_0 : S2048x36864.Transposes [1, 0] S36864x2048
  transposes_S256x2048_S2048x256_1_0 : S256x2048.Transposes [1, 0] S2048x256
  reducesTo_S192x48_S192_d1 : S192x48.ReducesTo [1] S192
  h_S_ : 0 < S_.numel
  bcast_S_S192 : S_.BroadcastsInDim S192 (![] : Fin 0 → Fin S192.rank)
  bcast_S192_S192x1_0 : S192.BroadcastsInDim S192x1 (![0] : Fin 1 → Fin S192x1.rank)
  bcast_S192x1_S192x48_0_1 : S192x1.BroadcastsInDim S192x48 (![0, 1] : Fin 2 → Fin S192x48.rank)
  bcast_S192x48_S192x1x48x1_0_2 : S192x48.BroadcastsInDim S192x1x48x1 (![0, 2] : Fin 2 → Fin S192x1x48x1.rank)
  bcast_S192x48_S1x192x1x48_1_3 : S192x48.BroadcastsInDim S1x192x1x48 (![1, 3] : Fin 2 → Fin S1x192x1x48.rank)
  bcast_S192x1x48x1_S192x192x48x48_0_1_2_3 : S192x1x48x1.BroadcastsInDim S192x192x48x48 (![0, 1, 2, 3] : Fin 4 → Fin S192x192x48x48.rank)
  bcast_S1x192x1x48_S192x192x48x48_0_1_2_3 : S1x192x1x48.BroadcastsInDim S192x192x48x48 (![0, 1, 2, 3] : Fin 4 → Fin S192x192x48x48.rank)
  shapeCasts_S192x192x48x48_S36864x2304 : S192x192x48x48.ShapeCasts S36864x2304
  reducesTo_S2048x256_S2048_d1 : S2048x256.ReducesTo [1] S2048
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  bcast_S_S256x2304 : S_.BroadcastsInDim S256x2304 (![] : Fin 0 → Fin S256x2304.rank)
  transposes_S36864x2304_S2304x36864_1_0 : S36864x2304.Transposes [1, 0] S2304x36864
  dot_S2304x36864_S36864x2048_S2304x2048_1_0_0_1_n_n_wf : DotDims.WF S2304x36864 S36864x2048 S2304x2048 [1] [0] [0] [1] [] []
  dot_S256x2304_S2304x2048_S256x2048_1_0_0_1_n_n_wf : DotDims.WF S256x2304 S2304x2048 S256x2048 [1] [0] [0] [1] [] []
  dot_S2048x256_S256x2304_S2048x2304_1_0_0_1_n_n_wf : DotDims.WF S2048x256 S256x2304 S2048x2304 [1] [0] [0] [1] [] []
  dot_S2048x2304_S2304x36864_S2048x36864_1_0_0_1_n_n_wf : DotDims.WF S2048x2304 S2304x36864 S2048x36864 [1] [0] [0] [1] [] []

variable [Facts₀]

def dot_S2304x36864_S36864x2048_S2304x2048_1_0_0_1_n_n : DotDims S2304x36864 S36864x2048 S2304x2048 where
  lhsContracting := [1]
  rhsContracting := [0]
  lhsNonContracting := [0]
  rhsNonContracting := [1]
  lhsBatch := []
  rhsBatch := []
  wf := dot_S2304x36864_S36864x2048_S2304x2048_1_0_0_1_n_n_wf
def dot_S256x2304_S2304x2048_S256x2048_1_0_0_1_n_n : DotDims S256x2304 S2304x2048 S256x2048 where
  lhsContracting := [1]
  rhsContracting := [0]
  lhsNonContracting := [0]
  rhsNonContracting := [1]
  lhsBatch := []
  rhsBatch := []
  wf := dot_S256x2304_S2304x2048_S256x2048_1_0_0_1_n_n_wf
def dot_S2048x256_S256x2304_S2048x2304_1_0_0_1_n_n : DotDims S2048x256 S256x2304 S2048x2304 where
  lhsContracting := [1]
  rhsContracting := [0]
  lhsNonContracting := [0]
  rhsNonContracting := [1]
  lhsBatch := []
  rhsBatch := []
  wf := dot_S2048x256_S256x2304_S2048x2304_1_0_0_1_n_n_wf
def dot_S2048x2304_S2304x36864_S2048x36864_1_0_0_1_n_n : DotDims S2048x2304 S2304x36864 S2048x36864 where
  lhsContracting := [1]
  rhsContracting := [0]
  lhsNonContracting := [0]
  rhsNonContracting := [1]
  lhsBatch := []
  rhsBatch := []
  wf := dot_S2048x2304_S2304x36864_S2048x36864_1_0_0_1_n_n_wf

class Facts : Prop extends Facts₀ where

variable [Facts]
-- ==== Proof.BodyStages.lean ====
/-
  The body's stored value cut into its four stretches, each a value-level function of what it reads: the code of the
  rows (three products and the re-layings between them), the row softmax, the decode up to the last re-laying, and the
  last product.  The printed payloads are these, composed.
-/
import proofs.«139005_j67740224193011_1_alg».proof.Proof.Gen.KernelIdeal.Skeleton

noncomputable section

namespace Cert.Tucker

open Cert.KernelIdeal Cert.KernelIdeal.Gen Idealize.ShloMosaic

variable {F : FTy → Type} [FloatOps F]

/-- The code of the block's 32 rows: rows × `bt`, the 192 × 48 results transposed per row, × `ct`, the 48 × 48 results
    flattened, × `gp`. -/
def encV (v0 : Vec F S32x36864 .f32) (v3 : Vec F S192x48 .bf16) (v10 : Vec F S192x48 .bf16) (v15 : Vec F S2304x256 .bf16) : FVec F S32x256 .f32 :=
  have v1 : FVec F S32x36864 .bf16 := truncf .bf16 v0 bitsLt_bf16_f32
  have v2 : FVec F S6144x192 .bf16 := shapeCast S6144x192 v1 shapeCasts_S32x36864_S6144x192
  have v4 : FVec F S192x48 .bf16 := shapeCast S192x48 v3 shapeCasts_S192x48_S192x48
  have cst : FVec F S6144x48 .f32 := constant S6144x48 .f32 0x00000000#32
  have v5 : FVec F S6144x48 .f32 := matmul dot_S6144x192_S192x48_S6144x48_1_0_0_1_n_n none v2 v4 cst
  have v6 : FVec F S32x192x48 .f32 := shapeCast S32x192x48 v5 shapeCasts_S6144x48_S32x192x48
  have v7 : FVec F S32x48x192 .f32 := transpose S32x48x192 [0, 2, 1] v6 transposes_S32x192x48_p0_2_1_S32x48x192
  have v8 : FVec F S1536x192 .f32 := shapeCast S1536x192 v7 shapeCasts_S32x48x192_S1536x192
  have v9 : FVec F S1536x192 .bf16 := truncf .bf16 v8 bitsLt_bf16_f32
  have v11 : FVec F S192x48 .bf16 := shapeCast S192x48 v10 shapeCasts_S192x48_S192x48
  have cst_5 : FVec F S1536x48 .f32 := constant S1536x48 .f32 0x00000000#32
  have v12 : FVec F S1536x48 .f32 := matmul dot_S1536x192_S192x48_S1536x48_1_0_0_1_n_n none v9 v11 cst_5
  have v13 : FVec F S32x2304 .f32 := shapeCast S32x2304 v12 shapeCasts_S1536x48_S32x2304
  have v14 : FVec F S32x2304 .bf16 := truncf .bf16 v13 bitsLt_bf16_f32
  have v16 : FVec F S2304x256 .bf16 := shapeCast S2304x256 v15 shapeCasts_S2304x256_S2304x256
  have cst_8 : FVec F S32x256 .f32 := constant S32x256 .f32 0x00000000#32
  have v17 : FVec F S32x256 .f32 := matmul dot_S32x2304_S2304x256_S32x256_1_0_0_1_n_n none v14 v16 cst_8
  v17

/-- The row softmax of a 32 × 256 block. -/
def smV (v17 : FVec F S32x256 .f32) : FVec F S32x256 .f32 :=
  have v18 : FVec F S32 .f32 := multiReduction .maximumf [1] S32 v17 0xFF800000#32 reduces_S32x256_S32 (.inl rfl) rfl
  have cst_10 : F .f32 := Scalar.ofBits .f32 0xFF800000#32
  have v19 : FVec F S32 .f32 := broadcast S32 cst_10
  have v20 : FVec F S32 .f32 := maximumf v19 v18
  have v21 : FVec F S32x1 .f32 := shapeCast S32x1 v20 shapeCasts_S32_S32x1
  have v22 : FVec F S32x256 .f32 := broadcastTo S32x256 v21 broadcasts_S32x1_S32x256
  have v23 : FVec F S32x256 .f32 := subf v17 v22
  have v24 : FVec F S32x256 .f32 := exp v23
  have v25 : FVec F S32 .f32 := multiReduction .add [1] S32 v24 0x00000000#32 reduces_S32x256_S32 (.inl rfl) rfl
  have v26 : FVec F S32x1 .f32 := shapeCast S32x1 v25 shapeCasts_S32_S32x1
  have v27 : FVec F S32x256 .f32 := broadcastTo S32x256 v26 broadcasts_S32x1_S32x256
  have v28 : FVec F S32x256 .f32 := divf v24 v27
  v28

/-- The decode up to its last re-laying: × `rp`, each row's 2304 entries read as 48 × 48, × `sc`. -/
def decV (v29 : FVec F S32x256 .bf16) (v30 : Vec F S256x2304 .bf16) (v35 : Vec F S48x192 .bf16) : FVec F S32x48x192 .f32 :=
  have v31 : FVec F S256x2304 .bf16 := shapeCast S256x2304 v30 shapeCasts_S256x2304_S256x2304
  have cst_14 : FVec F S32x2304 .f32 := constant S32x2304 .f32 0x00000000#32
  have v32 : FVec F S32x2304 .f32 := matmul dot_S32x256_S256x2304_S32x2304_1_0_0_1_n_n none v29 v31 cst_14
  have v33 : FVec F S1536x48 .f32 := shapeCast S1536x48 v32 shapeCasts_S32x2304_S1536x48
  have v34 : FVec F S1536x48 .bf16 := truncf .bf16 v33 bitsLt_bf16_f32
  have v36 : FVec F S48x192 .bf16 := shapeCast S48x192 v35 shapeCasts_S48x192_S48x192
  have cst_17 : FVec F S1536x192 .f32 := constant S1536x192 .f32 0x00000000#32
  have v37 : FVec F S1536x192 .f32 := matmul dot_S1536x48_S48x192_S1536x192_1_0_0_1_n_n none v34 v36 cst_17
  have v38 : FVec F S32x48x192 .f32 := shapeCast S32x48x192 v37 shapeCasts_S1536x192_S32x48x192
  v38

/-- The last product: the 48 × 192 results transposed per row, × `sb`, each row's 192 × 192 results flattened. -/
def tailV (v38 : FVec F S32x48x192 .f32) (v42 : Vec F S48x192 .bf16) : FVec F S32x36864 .f32 :=
  have v39 : FVec F S32x192x48 .f32 := transpose S32x192x48 [0, 2, 1] v38 transposes_S32x48x192_p0_2_1_S32x192x48
  have v40 : FVec F S6144x48 .f32 := shapeCast S6144x48 v39 shapeCasts_S32x192x48_S6144x48
  have v41 : FVec F S6144x48 .bf16 := truncf .bf16 v40 bitsLt_bf16_f32
  have v43 : FVec F S48x192 .bf16 := shapeCast S48x192 v42 shapeCasts_S48x192_S48x192
  have cst_20 : FVec F S6144x192 .f32 := constant S6144x192 .f32 0x00000000#32
  have v44 : FVec F S6144x192 .f32 := matmul dot_S6144x48_S48x192_S6144x192_1_0_0_1_n_n none v41 v43 cst_20
  have v45 : FVec F S32x36864 .f32 := shapeCast S32x36864 v44 shapeCasts_S6144x192_S32x36864
  v45

/-- The first printed payload is the three stretches composed (a change of float format between them). -/
theorem pay2_eq (v0 : Vec F S32x36864 .f32) (v3 : Vec F S192x48 .bf16) (v10 : Vec F S192x48 .bf16) (v15 : Vec F S2304x256 .bf16)
    (v30 : Vec F S256x2304 .bf16) (v35 : Vec F S48x192 .bf16) :
    k0_pay2 v0 v3 v10 v15 v30 v35 = decV (truncf .bf16 (smV (encV v0 v3 v10 v15)) bitsLt_bf16_f32) v30 v35 := rfl

/-- The second printed payload is the last stretch. -/
theorem pay1_eq (v38 : FVec F S32x48x192 .f32) (v42 : Vec F S48x192 .bf16) : k0_pay1 v38 v42 = tailV v38 v42 := rfl

end Cert.Tucker

end
-- ==== Proof.Spec.lean ====
/-
  The two programs as formulas, for ONE row `x` of the data matrix (36864 = 192 · 192 entries, entry
  `k · 192 + j` being position `(k, j)` of the row read as a 192 × 192 matrix).

  Encoding.  With `Bi, Ci` (48 × 192) and `Gi` (2304 × 256, row `r3 · 48 + r2`), the code of the row is
      a[r1] = Σ_{r3, r2} Gi[r3 · 48 + r2, r1] · Σ_{k, j} Ci[r3, k] · Bi[r2, j] · x[k · 192 + j].
  Decoding.  With `s = softmax a`, `relu G` (256 × 2304) and the row-softmaxes of `B, C` (192 × 48),
      out[k · 192 + j] = Σ_{r3, r2} (Σ_{r1} s[r1] · relu G[r1, r3 · 48 + r2]) · sm C[k, r3] · sm B[j, r2].

  The reference spells both contractions with explicit Kronecker matrices (`encR`, `outR`: sums over all 2304
  and all 36864 positions).  The kernel applies the two Kronecker factors one after the other (`encK`,
  `outK`: sums over 192 or 48 positions at a time) and meets `Gi` and `relu G` with the pair `(r3, r2)`
  re-laid as `r2 · 48 + r3`.  Over finite reals the two spellings are one number, by distributivity
  (Proof/Algebra.lean).
-/
import Idealize.ShloMosaic.PureOps.Ideal

noncomputable section

namespace Cert.Tucker

open Idealize.ShloMosaic

/-- `-∞` as both programs write it: the f32 pattern of negative infinity. -/
abbrev negInf : EReal := Ideal.ofBits .f32 0xFF800000#32

/-- The maximum of a row as both programs take it: a fold of `max` from `-∞`, then once more against `-∞`. -/
def rowMax {n : ℕ} (a : Fin n → EReal) : EReal := max negInf (Finset.univ.fold max negInf a)

/-- The softmax of a row as both programs spell it: `exp (aᵢ - max a) / Σⱼ exp (aⱼ - max a)`. -/
def smax {n : ℕ} (a : Fin n → EReal) (i : Fin n) : EReal :=
  Ideal.div (Ideal.exp (a i - rowMax a)) (∑ j : Fin n, Ideal.exp (a j - rowMax a))

/-- `relu`: the maximum with zero. -/
def relu (x : EReal) : EReal := max x 0

/-! ### Positions in the flattened axes -/

/-- Position `a · 48 + b` of a flattened 48 × 48 axis. -/
def pr (a b : Fin 48) : Fin 2304 := ⟨a.val * 48 + b.val, by have := a.isLt; have := b.isLt; omega⟩
/-- The leading coordinate `p / 48` of a position of the flattened 48 × 48 axis. -/
def hi48 (p : Fin 2304) : Fin 48 := ⟨p.val / 48, by have := p.isLt; omega⟩
/-- The trailing coordinate `p % 48`. -/
def lo48 (p : Fin 2304) : Fin 48 := ⟨p.val % 48, by omega⟩
/-- Position `k · 192 + j` of a flattened 192 × 192 axis. -/
def kj (k j : Fin 192) : Fin 36864 := ⟨k.val * 192 + j.val, by have := k.isLt; have := j.isLt; omega⟩
/-- The leading coordinate `q / 192`. -/
def hi192 (q : Fin 36864) : Fin 192 := ⟨q.val / 192, by have := q.isLt; omega⟩
/-- The trailing coordinate `q % 192`. -/
def lo192 (q : Fin 36864) : Fin 192 := ⟨q.val % 192, by omega⟩

/-- The pair of a position, swapped: `(p % 48) · 48 + p / 48`. -/
def swap48 (p : Fin 2304) : Fin 2304 := pr (lo48 p) (hi48 p)

/-! ### The kernel's spelling (its six small operands as the call receives them) -/

/-- The code of a row, the kernel's way: contract `j` against `bt` (192 × 48), then `k` against `ct` (192 × 48), lay
    the 48 × 48 result out as `r2 · 48 + r3`, and contract that against `gp` (2304 × 256). -/
def encK (x : Fin 36864 → EReal) (bt ct : Fin 192 → Fin 48 → EReal) (gp : Fin 2304 → Fin 256 → EReal)
    (r1 : Fin 256) : EReal :=
  ∑ p : Fin 2304, (∑ k : Fin 192, (∑ j : Fin 192, x (kj k j) * bt j (hi48 p)) * ct k (lo48 p)) * gp p r1

/-- A row of the result, the kernel's way: the softmax of the code against `rp` (256 × 2304, columns laid out as
    `r2 · 48 + r3`), then `r3` against `sc` (48 × 192), then `r2` against `sb` (48 × 192). -/
def outK (x : Fin 36864 → EReal) (bt ct : Fin 192 → Fin 48 → EReal) (gp : Fin 2304 → Fin 256 → EReal)
    (rp : Fin 256 → Fin 2304 → EReal) (sc sb : Fin 48 → Fin 192 → EReal) (k j : Fin 192) : EReal :=
  ∑ r2 : Fin 48, (∑ r3 : Fin 48, (∑ r1 : Fin 256, smax (encK x bt ct gp) r1 * rp r1 (pr r2 r3)) * sc r3 k) * sb r2 j

/-! ### The reference's spelling (the seven arguments themselves) -/

/-- The code of a row, the reference's way: `Giᵀ · (kron(Ci, Bi) · x)`, the Kronecker matrix entry at
    `(r3 · 48 + r2, k · 192 + j)` being `Ci[r3, k] · Bi[r2, j]`. -/
def encR (x : Fin 36864 → EReal) (bi ci : Fin 48 → Fin 192 → EReal) (gi : Fin 2304 → Fin 256 → EReal)
    (r1 : Fin 256) : EReal :=
  ∑ p : Fin 2304, gi p r1 * ∑ q : Fin 36864, (ci (hi48 p) (hi192 q) * bi (lo48 p) (lo192 q)) * x q

/-- A row of the result, the reference's way: `softmax(code) · relu(G) · kron(sm C, sm B)ᵀ`, the Kronecker matrix entry
    at `(k · 192 + j, r3 · 48 + r2)` being `sm C[k, r3] · sm B[j, r2]`. -/
def outR (x : Fin 36864 → EReal) (b c : Fin 192 → Fin 48 → EReal) (g : Fin 256 → Fin 2304 → EReal)
    (bi ci : Fin 48 → Fin 192 → EReal) (gi : Fin 2304 → Fin 256 → EReal) (q : Fin 36864) : EReal :=
  ∑ p : Fin 2304, (∑ r1 : Fin 256, smax (encR x bi ci gi) r1 * relu (g r1 p))
    * (smax (c (hi192 q)) (hi48 p) * smax (b (lo192 q)) (lo48 p))

/-- The kernel's spelling with its six small operands written out from the seven arguments, as the host lines before
    the call make them: two transposes, the two re-laid matrices, the two transposed softmaxes. -/
def outKofArgs (x : Fin 36864 → EReal) (b c : Fin 192 → Fin 48 → EReal) (g : Fin 256 → Fin 2304 → EReal)
    (bi ci : Fin 48 → Fin 192 → EReal) (gi : Fin 2304 → Fin 256 → EReal) (q : Fin 36864) : EReal :=
  outK x (fun j r => bi r j) (fun k r => ci r k) (fun p r1 => gi (swap48 p) r1)
    (fun r1 p => relu (g r1 (swap48 p))) (fun r k => smax (c k) r) (fun r j => smax (b j) r) (hi192 q) (lo192 q)

/-- Every entry is a real number. -/
def Real1 {α : Type} (f : α → EReal) : Prop := ∀ a, ∃ r : ℝ, f a = (r : EReal)
/-- Every entry of a matrix is a real number. -/
def Real2 {α β : Type} (f : α → β → EReal) : Prop := ∀ a b, ∃ r : ℝ, f a b = (r : EReal)

end Cert.Tucker

end
-- ==== Proof.SpecArr.lean ====
/-
  The result as ONE function of the seven argument arrays, index by index: entry `(n, q)` of the result depends on
  row `n` of the data matrix and on the six small matrices whole.  `specArr` is the reference's spelling
  (Proof/Spec.lean `outR`), `kerArr` the kernel's (`outKofArgs`).
-/
import proofs.«139005_j67740224193011_1_alg».proof.Proof.Spec
import Idealize.ShloMosaic.Lib.ValueIdx

noncomputable section

namespace Cert.Tucker

open Idealize.ShloMosaic Idealize.ShloMosaic.ValueIdx

/-- An `a × b` array of extended reals, indexed as the programs index it. -/
abbrev A2 (a b : ℕ) : Type := (⟨2, ![a, b]⟩ : Shape).Idx → EReal

/-- The array as a function of its two coordinates. -/
def cur {a b : ℕ} (f : A2 a b) (i : Fin a) (j : Fin b) : EReal := f (ix2 i j)

/-- Every entry of the array is a real number. -/
def RealArr {a b : ℕ} (f : A2 a b) : Prop := ∀ i, ∃ r : ℝ, f i = (r : EReal)

/-- The reference's result array. -/
def specArr (x : A2 2048 36864) (b c : A2 192 48) (g : A2 256 2304) (bi ci : A2 48 192) (gi : A2 2304 256) :
    A2 2048 36864 :=
  fun i => outR (cur x ⟨(i 0).val, (i 0).isLt⟩) (cur b) (cur c) (cur g) (cur bi) (cur ci) (cur gi) ⟨(i 1).val, (i 1).isLt⟩

/-- The kernel's result array. -/
def kerArr (x : A2 2048 36864) (b c : A2 192 48) (g : A2 256 2304) (bi ci : A2 48 192) (gi : A2 2304 256) :
    A2 2048 36864 :=
  fun i => outKofArgs (cur x ⟨(i 0).val, (i 0).isLt⟩) (cur b) (cur c) (cur g) (cur bi) (cur ci) (cur gi) ⟨(i 1).val, (i 1).isLt⟩

theorem real2_cur {a b : ℕ} {f : A2 a b} (h : RealArr f) : Real2 (cur f) := fun i j => h (ix2 i j)
theorem real1_cur {a b : ℕ} {f : A2 a b} (h : RealArr f) (i : Fin a) : Real1 (cur f i) := fun j => h (ix2 i j)

end Cert.Tucker

end
-- ==== Proof.BodyEnc.lean ====
/-
  The code stretch of the body, read at one entry.
-/
import proofs.«139005_j67740224193011_1_alg».proof.Proof.BodyStages
import proofs.«139005_j67740224193011_1_alg».proof.Proof.SpecArr
import Idealize.ShloMosaic.Lib.ValueIdx
import Idealize.ShloMosaic.Lib.ValueLayout
import Idealize.ShloMosaic.Lib.Pipeline.Value
import Idealize.ShloMosaic.PureOps.Ideal.Laws

noncomputable section

namespace Cert.Tucker

open Cert.KernelIdeal Cert.KernelIdeal.Gen Idealize.ShloMosaic Idealize.ShloMosaic.ValueIdx

/-! ### The product 6144 × 192 by 192 × 48, read at one entry -/

theorem mm1_lhs_0 (i : S6144x48.Idx) (q : dot_S6144x192_S192x48_S6144x48_1_0_0_1_n_n.contr.Idx) :
    (dot_S6144x192_S192x48_S6144x48_1_0_0_1_n_n.lhsIdx i q 0).val = (i 0).val := by
  unfold DotDims.lhsIdx
  rw [dif_neg (show ¬(0 : Fin S6144x192.rank) ∈ dot_S6144x192_S192x48_S6144x48_1_0_0_1_n_n.lhsBatch by decide), dif_pos (show (0 : Fin S6144x192.rank) ∈ dot_S6144x192_S192x48_S6144x48_1_0_0_1_n_n.lhsNonContracting by decide)]
  rfl
theorem mm1_lhs_1 (i : S6144x48.Idx) (q : dot_S6144x192_S192x48_S6144x48_1_0_0_1_n_n.contr.Idx) :
    (dot_S6144x192_S192x48_S6144x48_1_0_0_1_n_n.lhsIdx i q 1).val = (q ⟨0, by decide⟩).val :=
  dot_S6144x192_S192x48_S6144x48_1_0_0_1_n_n.lhsIdx_val_of_single rfl i q
theorem mm1_rhs_0 (i : S6144x48.Idx) (q : dot_S6144x192_S192x48_S6144x48_1_0_0_1_n_n.contr.Idx) :
    (dot_S6144x192_S192x48_S6144x48_1_0_0_1_n_n.rhsIdx i q 0).val = (q ⟨0, by decide⟩).val :=
  dot_S6144x192_S192x48_S6144x48_1_0_0_1_n_n.rhsIdx_val_of_single rfl i q
theorem mm1_rhs_1 (i : S6144x48.Idx) (q : dot_S6144x192_S192x48_S6144x48_1_0_0_1_n_n.contr.Idx) :
    (dot_S6144x192_S192x48_S6144x48_1_0_0_1_n_n.rhsIdx i q 1).val = (i 1).val := by
  unfold DotDims.rhsIdx
  rw [dif_neg (show ¬(1 : Fin S192x48.rank) ∈ dot_S6144x192_S192x48_S6144x48_1_0_0_1_n_n.rhsBatch by decide), dif_pos (show (1 : Fin S192x48.rank) ∈ dot_S6144x192_S192x48_S6144x48_1_0_0_1_n_n.rhsNonContracting by decide)]
  rfl

/-- Into a zero accumulator the product at `(a, r)` is the sum over the contracted position of the operands' products. -/
theorem mm1_apply (v : FVec Ideal S6144x192 .bf16) (w : FVec Ideal S192x48 .bf16) (a : Fin 6144) (r : Fin 48) :
    matmul dot_S6144x192_S192x48_S6144x48_1_0_0_1_n_n none v w (constant (F := Ideal) S6144x48 .f32 0x00000000#32) (ix2 a r)
      = ∑ j : Fin 192, v (ix2 a j) * w (ix2 j r) := by
  simp only [matmul]
  rw [Ideal.matmul_constant_zero_apply, ← Equiv.sum_comp (contrEquiv1 dot_S6144x192_S192x48_S6144x48_1_0_0_1_n_n 192 rfl rfl).symm]
  refine Finset.sum_congr rfl fun k _ => ?_
  have hk := contrEquiv1_symm_val dot_S6144x192_S192x48_S6144x48_1_0_0_1_n_n 192 rfl rfl k
  have el : dot_S6144x192_S192x48_S6144x48_1_0_0_1_n_n.lhsIdx (ix2 a r) ((contrEquiv1 dot_S6144x192_S192x48_S6144x48_1_0_0_1_n_n 192 rfl rfl).symm k) = ix2 a k := funext fun b => Fin.ext (by
    match b with
    | ⟨0, _⟩ => exact mm1_lhs_0 _ _
    | ⟨1, _⟩ => exact (mm1_lhs_1 _ _).trans hk)
  have er : dot_S6144x192_S192x48_S6144x48_1_0_0_1_n_n.rhsIdx (ix2 a r) ((contrEquiv1 dot_S6144x192_S192x48_S6144x48_1_0_0_1_n_n 192 rfl rfl).symm k) = ix2 k r := funext fun b => Fin.ext (by
    match b with
    | ⟨0, _⟩ => exact (mm1_rhs_0 _ _).trans hk
    | ⟨1, _⟩ => exact mm1_rhs_1 _ _)
  rw [el, er]

/-! ### The product 1536 × 192 by 192 × 48, read at one entry -/

theorem mm2_lhs_0 (i : S1536x48.Idx) (q : dot_S1536x192_S192x48_S1536x48_1_0_0_1_n_n.contr.Idx) :
    (dot_S1536x192_S192x48_S1536x48_1_0_0_1_n_n.lhsIdx i q 0).val = (i 0).val := by
  unfold DotDims.lhsIdx
  rw [dif_neg (show ¬(0 : Fin S1536x192.rank) ∈ dot_S1536x192_S192x48_S1536x48_1_0_0_1_n_n.lhsBatch by decide), dif_pos (show (0 : Fin S1536x192.rank) ∈ dot_S1536x192_S192x48_S1536x48_1_0_0_1_n_n.lhsNonContracting by decide)]
  rfl
theorem mm2_lhs_1 (i : S1536x48.Idx) (q : dot_S1536x192_S192x48_S1536x48_1_0_0_1_n_n.contr.Idx) :
    (dot_S1536x192_S192x48_S1536x48_1_0_0_1_n_n.lhsIdx i q 1).val = (q ⟨0, by decide⟩).val :=
  dot_S1536x192_S192x48_S1536x48_1_0_0_1_n_n.lhsIdx_val_of_single rfl i q
theorem mm2_rhs_0 (i : S1536x48.Idx) (q : dot_S1536x192_S192x48_S1536x48_1_0_0_1_n_n.contr.Idx) :
    (dot_S1536x192_S192x48_S1536x48_1_0_0_1_n_n.rhsIdx i q 0).val = (q ⟨0, by decide⟩).val :=
  dot_S1536x192_S192x48_S1536x48_1_0_0_1_n_n.rhsIdx_val_of_single rfl i q
theorem mm2_rhs_1 (i : S1536x48.Idx) (q : dot_S1536x192_S192x48_S1536x48_1_0_0_1_n_n.contr.Idx) :
    (dot_S1536x192_S192x48_S1536x48_1_0_0_1_n_n.rhsIdx i q 1).val = (i 1).val := by
  unfold DotDims.rhsIdx
  rw [dif_neg (show ¬(1 : Fin S192x48.rank) ∈ dot_S1536x192_S192x48_S1536x48_1_0_0_1_n_n.rhsBatch by decide), dif_pos (show (1 : Fin S192x48.rank) ∈ dot_S1536x192_S192x48_S1536x48_1_0_0_1_n_n.rhsNonContracting by decide)]
  rfl

/-- Into a zero accumulator the product at `(a, r)` is the sum over the contracted position of the operands' products. -/
theorem mm2_apply (v : FVec Ideal S1536x192 .bf16) (w : FVec Ideal S192x48 .bf16) (a : Fin 1536) (r : Fin 48) :
    matmul dot_S1536x192_S192x48_S1536x48_1_0_0_1_n_n none v w (constant (F := Ideal) S1536x48 .f32 0x00000000#32) (ix2 a r)
      = ∑ j : Fin 192, v (ix2 a j) * w (ix2 j r) := by
  simp only [matmul]
  rw [Ideal.matmul_constant_zero_apply, ← Equiv.sum_comp (contrEquiv1 dot_S1536x192_S192x48_S1536x48_1_0_0_1_n_n 192 rfl rfl).symm]
  refine Finset.sum_congr rfl fun k _ => ?_
  have hk := contrEquiv1_symm_val dot_S1536x192_S192x48_S1536x48_1_0_0_1_n_n 192 rfl rfl k
  have el : dot_S1536x192_S192x48_S1536x48_1_0_0_1_n_n.lhsIdx (ix2 a r) ((contrEquiv1 dot_S1536x192_S192x48_S1536x48_1_0_0_1_n_n 192 rfl rfl).symm k) = ix2 a k := funext fun b => Fin.ext (by
    match b with
    | ⟨0, _⟩ => exact mm2_lhs_0 _ _
    | ⟨1, _⟩ => exact (mm2_lhs_1 _ _).trans hk)
  have er : dot_S1536x192_S192x48_S1536x48_1_0_0_1_n_n.rhsIdx (ix2 a r) ((contrEquiv1 dot_S1536x192_S192x48_S1536x48_1_0_0_1_n_n 192 rfl rfl).symm k) = ix2 k r := funext fun b => Fin.ext (by
    match b with
    | ⟨0, _⟩ => exact (mm2_rhs_0 _ _).trans hk
    | ⟨1, _⟩ => exact mm2_rhs_1 _ _)
  rw [el, er]

/-! ### The product 32 × 2304 by 2304 × 256, read at one entry -/

theorem mm3_lhs_0 (i : S32x256.Idx) (q : dot_S32x2304_S2304x256_S32x256_1_0_0_1_n_n.contr.Idx) :
    (dot_S32x2304_S2304x256_S32x256_1_0_0_1_n_n.lhsIdx i q 0).val = (i 0).val := by
  unfold DotDims.lhsIdx
  rw [dif_neg (show ¬(0 : Fin S32x2304.rank) ∈ dot_S32x2304_S2304x256_S32x256_1_0_0_1_n_n.lhsBatch by decide), dif_pos (show (0 : Fin S32x2304.rank) ∈ dot_S32x2304_S2304x256_S32x256_1_0_0_1_n_n.lhsNonContracting by decide)]
  rfl
theorem mm3_lhs_1 (i : S32x256.Idx) (q : dot_S32x2304_S2304x256_S32x256_1_0_0_1_n_n.contr.Idx) :
    (dot_S32x2304_S2304x256_S32x256_1_0_0_1_n_n.lhsIdx i q 1).val = (q ⟨0, by decide⟩).val :=
  dot_S32x2304_S2304x256_S32x256_1_0_0_1_n_n.lhsIdx_val_of_single rfl i q
theorem mm3_rhs_0 (i : S32x256.Idx) (q : dot_S32x2304_S2304x256_S32x256_1_0_0_1_n_n.contr.Idx) :
    (dot_S32x2304_S2304x256_S32x256_1_0_0_1_n_n.rhsIdx i q 0).val = (q ⟨0, by decide⟩).val :=
  dot_S32x2304_S2304x256_S32x256_1_0_0_1_n_n.rhsIdx_val_of_single rfl i q
theorem mm3_rhs_1 (i : S32x256.Idx) (q : dot_S32x2304_S2304x256_S32x256_1_0_0_1_n_n.contr.Idx) :
    (dot_S32x2304_S2304x256_S32x256_1_0_0_1_n_n.rhsIdx i q 1).val = (i 1).val := by
  unfold DotDims.rhsIdx
  rw [dif_neg (show ¬(1 : Fin S2304x256.rank) ∈ dot_S32x2304_S2304x256_S32x256_1_0_0_1_n_n.rhsBatch by decide), dif_pos (show (1 : Fin S2304x256.rank) ∈ dot_S32x2304_S2304x256_S32x256_1_0_0_1_n_n.rhsNonContracting by decide)]
  rfl

/-- Into a zero accumulator the product at `(a, r)` is the sum over the contracted position of the operands' products. -/
theorem mm3_apply (v : FVec Ideal S32x2304 .bf16) (w : FVec Ideal S2304x256 .bf16) (a : Fin 32) (r : Fin 256) :
    matmul dot_S32x2304_S2304x256_S32x256_1_0_0_1_n_n none v w (constant (F := Ideal) S32x256 .f32 0x00000000#32) (ix2 a r)
      = ∑ j : Fin 2304, v (ix2 a j) * w (ix2 j r) := by
  simp only [matmul]
  rw [Ideal.matmul_constant_zero_apply, ← Equiv.sum_comp (contrEquiv1 dot_S32x2304_S2304x256_S32x256_1_0_0_1_n_n 2304 rfl rfl).symm]
  refine Finset.sum_congr rfl fun k _ => ?_
  have hk := contrEquiv1_symm_val dot_S32x2304_S2304x256_S32x256_1_0_0_1_n_n 2304 rfl rfl k
  have el : dot_S32x2304_S2304x256_S32x256_1_0_0_1_n_n.lhsIdx (ix2 a r) ((contrEquiv1 dot_S32x2304_S2304x256_S32x256_1_0_0_1_n_n 2304 rfl rfl).symm k) = ix2 a k := funext fun b => Fin.ext (by
    match b with
    | ⟨0, _⟩ => exact mm3_lhs_0 _ _
    | ⟨1, _⟩ => exact (mm3_lhs_1 _ _).trans hk)
  have er : dot_S32x2304_S2304x256_S32x256_1_0_0_1_n_n.rhsIdx (ix2 a r) ((contrEquiv1 dot_S32x2304_S2304x256_S32x256_1_0_0_1_n_n 2304 rfl rfl).symm k) = ix2 k r := funext fun b => Fin.ext (by
    match b with
    | ⟨0, _⟩ => exact (mm3_rhs_0 _ _).trans hk
    | ⟨1, _⟩ => exact mm3_rhs_1 _ _)
  rw [el, er]

/-! ### The re-layings between the products, read at one entry -/

/-- Row `n · 192 + k`, column `j` of the data block re-laid as 6144 × 192 is entry `(n, k · 192 + j)` of the block. -/
theorem relay1_apply (v0 : Vec Ideal S32x36864 .f32) (n : Fin 32) (k j : Fin 192) :
    shapeCast S6144x192 (truncf .bf16 v0 bitsLt_bf16_f32 : FVec Ideal S32x36864 .bf16) shapeCasts_S32x36864_S6144x192
        (ix2 (⟨n.val * 192 + k.val, by have := n.isLt; have := k.isLt; omega⟩ : Fin 6144) j)
      = v0 (ix2 n (kj k j)) := by
  refine (shapeCast_apply _ shapeCasts_S32x36864_S6144x192 _ (ix2 n (kj k j)) ?_).trans rfl
  rw [Shape.rowMajor_val_two, Shape.rowMajor_val_two]
  show n.val * 36864 + (k.val * 192 + j.val) = (n.val * 192 + k.val) * 192 + j.val
  omega

/-- The first product's 6144 × 48 result, read per row as 192 × 48, transposed, and re-laid as 1536 × 192: row
    `n · 48 + r`, column `k` is entry `(n · 192 + k, r)` of the product. -/
theorem relay2_apply (v5 : FVec Ideal S6144x48 .f32) (n : Fin 32) (r : Fin 48) (k : Fin 192) :
    (truncf .bf16 (shapeCast S1536x192 (transpose S32x48x192 [0, 2, 1] (shapeCast S32x192x48 v5 shapeCasts_S6144x48_S32x192x48)
          transposes_S32x192x48_p0_2_1_S32x48x192) shapeCasts_S32x48x192_S1536x192) bitsLt_bf16_f32 : FVec Ideal S1536x192 .bf16)
        (ix2 (⟨n.val * 48 + r.val, by have := n.isLt; have := r.isLt; omega⟩ : Fin 1536) k)
      = v5 (ix2 (⟨n.val * 192 + k.val, by have := n.isLt; have := k.isLt; omega⟩ : Fin 6144) r) := by
  refine (truncf_apply (ψ := .bf16) _ bitsLt_bf16_f32 _).trans ?_
  refine (shapeCast_apply _ shapeCasts_S32x48x192_S1536x192 _ (ix3 n r k) ?_).trans ?_
  · rw [Shape.rowMajor_val_three, Shape.rowMajor_val_two]
    show (n.val * 48 + r.val) * 192 + k.val = (n.val * 48 + r.val) * 192 + k.val
    rfl
  refine (transpose_ix3_021_apply _ transposes_S32x192x48_p0_2_1_S32x48x192 n r k).trans ?_
  refine shapeCast_apply _ shapeCasts_S6144x48_S32x192x48 _ _ ?_
  rw [Shape.rowMajor_val_two, Shape.rowMajor_val_three]
  show (n.val * 192 + k.val) * 48 + r.val = (n.val * 192 + k.val) * 48 + r.val
  rfl

/-- The second product's 1536 × 48 result re-laid as 32 × 2304: entry `(n, p)` is entry `(n · 48 + p / 48, p % 48)` of
    the product. -/
theorem relay3_apply (v12 : FVec Ideal S1536x48 .f32) (n : Fin 32) (p : Fin 2304) :
    (truncf .bf16 (shapeCast S32x2304 v12 shapeCasts_S1536x48_S32x2304) bitsLt_bf16_f32 : FVec Ideal S32x2304 .bf16) (ix2 n p)
      = v12 (ix2 (⟨n.val * 48 + (hi48 p).val, by have := n.isLt; have := (hi48 p).isLt; omega⟩ : Fin 1536) (lo48 p)) := by
  refine (truncf_apply (ψ := .bf16) _ bitsLt_bf16_f32 _).trans ?_
  refine shapeCast_apply _ shapeCasts_S1536x48_S32x2304 _ _ ?_
  rw [Shape.rowMajor_val_two, Shape.rowMajor_val_two]
  show (n.val * 48 + p.val / 48) * 48 + p.val % 48 = n.val * 2304 + p.val
  omega

/-! ### The three products composed -/

/-- Entry `(n, r1)` of the code block is the kernel's spelling `encK` of row `n` of the data block. -/
theorem encV_apply (x0 : Vec Ideal S32x36864 .f32) (w1 w2 : Vec Ideal S192x48 .bf16) (w3 : Vec Ideal S2304x256 .bf16)
    (n : Fin 32) (r1 : Fin 256) :
    encV (F := Ideal) x0 w1 w2 w3 (ix2 n r1)
      = encK (cur (a := 32) (b := 36864) x0 n) (cur (a := 192) (b := 48) w1) (cur (a := 192) (b := 48) w2)
          (cur (a := 2304) (b := 256) w3) r1 := by
  unfold encV encK
  -- the last product: a sum over the 2304 positions `p`
  refine (mm3_apply _ _ n r1).trans ?_
  refine Finset.sum_congr rfl fun p _ => ?_
  refine congrArg₂ (· * ·) ?_ (congrFun (shapeCast_self w3 shapeCasts_S2304x256_S2304x256) (ix2 p r1))
  -- position `p` of row `n` is entry `(n · 48 + p / 48, p % 48)` of the second product: a sum over `k`
  refine (relay3_apply _ n p).trans ?_
  refine (mm2_apply _ _ _ (lo48 p)).trans ?_
  refine Finset.sum_congr rfl fun k _ => ?_
  refine congrArg₂ (· * ·) ?_ (congrFun (shapeCast_self w2 shapeCasts_S192x48_S192x48) (ix2 k (lo48 p)))
  -- row `n · 48 + p / 48`, column `k` there is entry `(n · 192 + k, p / 48)` of the first product: a sum over `j`
  refine (relay2_apply _ n (hi48 p) k).trans ?_
  refine (mm1_apply _ _ _ (hi48 p)).trans ?_
  refine Finset.sum_congr rfl fun j _ => ?_
  exact congrArg₂ (· * ·) (relay1_apply x0 n k j) (congrFun (shapeCast_self w1 shapeCasts_S192x48_S192x48) (ix2 j (hi48 p)))

end Cert.Tucker

end
-- ==== Proof.LibColumn.lean ====
/-
  Column-shaped values read at an index given by coordinates, and a lane sum read as a finite sum.

  A row-wise reduction that keeps its axis (`sum(…, axis=1, keepdims=True)`) leaves an `[a, 1]` column. Three re-layings
  of such a column occur whenever it meets a full `[a, b]` tile: the cast of the `[a]` vector of sums to the column, the
  column broadcast along the rows of the tile, and (for the other operand's sums) the column transposed to a `[1, b]` row,
  which the library's `transpose_ix2_apply` and `broadcastTo_1b_ab_apply` already read. Each lemma states what the
  re-laid value holds at `(p, c)` in terms of the original vector, for indices built by `ix1` / `ix2`, so that it applies
  to a printed operation by unification. Generic in the extents and in the element type.
-/
import Idealize.ShloMosaic.Lib.ValueLayout
import Idealize.ShloMosaic.PureOps.Ideal.Laws

namespace Cert.Lib.Column

open Idealize.ShloMosaic Idealize.ShloMosaic.ValueIdx

variable {α : Type}

/-- An `[a]` vector cast to the column `[a, 1]` reads, at `(i, u)`, the vector's entry `i`, whatever the unit
    coordinate `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`: every column of the
    result is the operand. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, d]` block (a float `multi_reduction <add>` over axis 1 from the neutral
    accumulator), read on the extended reals at row `i`, is the finite sum of the row's `d` entries. -/
theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Column
-- ==== Proof.BodySmax.lean ====
/-
  The softmax stretch and the last product of the body, read at one entry.

  The softmax block: the row maxima (a fold of `max` from `-∞`, then once more against `-∞`) are cast to a column and
  broadcast along the rows, subtracted, exponentiated; the row sums of the exponentials are cast and broadcast the same
  way and divide. Read at `(n, r1)` every broadcast reads its row's one number, so the entry is the softmax of row `n`
  at `r1`.

  The last product: each of the 32 stacked `48 × 192` matrices is transposed, the stack flattened to `6144 × 48`
  (row `n · 192 + k`), multiplied by `sb` (`48 × 192`), and the `6144 × 192` result re-read as `32 × 36864`: entry
  `(n, q)` is entry `(n · 192 + q / 192, q % 192)` of the product, both being position `n · 36864 + q` in row-major
  order.
-/
import proofs.«139005_j67740224193011_1_alg».proof.Proof.BodyStages
import proofs.«139005_j67740224193011_1_alg».proof.Proof.SpecArr
import proofs.«139005_j67740224193011_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.Tucker

open Cert.KernelIdeal Cert.KernelIdeal.Gen Idealize.ShloMosaic Idealize.ShloMosaic.ValueIdx

namespace BodySmax

/-! ### The softmax block -/

/-- A vector cast to a column and the column broadcast along the rows reads, at `(p, c)`, the vector's entry `p`. -/
theorem colBroadcast_apply {α : Type} {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ x h1) h2 (ix2 p c) = x (ix1 p) :=
  (Cert.Lib.Column.broadcastTo_a1_ab_apply _ h2 p c).trans (Cert.Lib.Column.shapeCast_a_a1_apply x h1 p 0)

/-- The maximum along the rows of an `[a, d]` block from the accumulator `acc`, read at row `i`: the fold of `max`
    from the accumulator's value over the row's `d` entries. -/
theorem rowMaxFold_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin d)).fold max (Ideal.ofBits φ acc) (fun k => src (ix2 i k)) := by
  refine (Ideal.multiReduction_maximumf_single src acc h hφ hacc (ix1 i)).trans ?_
  refine congrArg (Finset.fold max (Ideal.ofBits φ acc) · (Finset.univ : Finset (Fin d))) ?_
  funext k
  refine congrArg src (funext fun c => Fin.ext ?_)
  match c with
  | ⟨0, _⟩ => rfl
  | ⟨1, _⟩ => rfl

/-- The row maxima (each taken from `-∞` and once more against `-∞`) as a column, broadcast along the rows. -/
def maxB (v : FVec Ideal S32x256 .f32) : FVec Ideal S32x256 .f32 :=
  broadcastTo S32x256
    (shapeCast S32x1
      (maximumf (broadcast S32 (Scalar.ofBits .f32 0xFF800000#32))
        (multiReduction .maximumf [1] S32 v 0xFF800000#32 reduces_S32x256_S32 (.inl rfl) rfl))
      shapeCasts_S32_S32x1)
    broadcasts_S32x1_S32x256

/-- The exponentials of the entries less their row's maximum. -/
def expB (v : FVec Ideal S32x256 .f32) : FVec Ideal S32x256 .f32 := exp (subf v (maxB v))

/-- The row sums of those exponentials as a column, broadcast along the rows. -/
def sumB (v : FVec Ideal S32x256 .f32) : FVec Ideal S32x256 .f32 :=
  broadcastTo S32x256
    (shapeCast S32x1 (multiReduction .add [1] S32 (expB v) 0x00000000#32 reduces_S32x256_S32 (.inl rfl) rfl) shapeCasts_S32_S32x1)
    broadcasts_S32x1_S32x256

/-- The softmax block is the quotient of the two. -/
theorem smV_eq (v : FVec Ideal S32x256 .f32) : smV (F := Ideal) v = divf (expB v) (sumB v) := rfl

/-- Every entry of row `n` of the broadcast maxima is the row's maximum. -/
theorem maxB_apply (v : FVec Ideal S32x256 .f32) (n : Fin 32) (c : Fin 256) :
    maxB v (ix2 n c) = rowMax (cur (a := 32) (b := 256) v n) := by
  unfold maxB
  refine (colBroadcast_apply _ shapeCasts_S32_S32x1 broadcasts_S32x1_S32x256 n c).trans ?_
  refine (maximumf_apply _ _ (ix1 n)).trans ?_
  refine congrArg (max negInf) ?_
  exact rowMaxFold_apply v 0xFF800000#32 reduces_S32x256_S32 (.inl rfl) rfl n

/-- Entry `(n, c)` of the exponentials. -/
theorem expB_apply (v : FVec Ideal S32x256 .f32) (n : Fin 32) (c : Fin 256) :
    expB v (ix2 n c) = Ideal.exp (cur (a := 32) (b := 256) v n c - rowMax (cur (a := 32) (b := 256) v n)) := by
  show Ideal.exp (v (ix2 n c) - maxB v (ix2 n c)) = _
  rw [maxB_apply]
  rfl

/-- Every entry of row `n` of the broadcast sums is the sum of the row's exponentials. -/
theorem sumB_apply (v : FVec Ideal S32x256 .f32) (n : Fin 32) (c : Fin 256) :
    sumB v (ix2 n c)
      = ∑ j : Fin 256, Ideal.exp (cur (a := 32) (b := 256) v n j - rowMax (cur (a := 32) (b := 256) v n)) := by
  unfold sumB
  refine (colBroadcast_apply _ shapeCasts_S32_S32x1 broadcasts_S32x1_S32x256 n c).trans ?_
  refine (Cert.Lib.Column.rowSum_apply (expB v) 0x00000000#32 reduces_S32x256_S32 (.inl rfl) rfl n).trans ?_
  exact Finset.sum_congr rfl fun j _ => expB_apply v n j

/-! ### The last product -/

/-- Row `n · 192 + k` of a `6144`-row matrix: row `k` of the `n`-th of 32 stacked `192`-row matrices. -/
def row192 (n : Fin 32) (k : Fin 192) : Fin 6144 := ⟨n.val * 192 + k.val, by have := n.isLt; have := k.isLt; omega⟩

/-- The left operand is read in the output's row … -/
theorem lhs_tail_0 (i : S6144x192.Idx) (q : dot_S6144x48_S48x192_S6144x192_1_0_0_1_n_n.contr.Idx) :
    (dot_S6144x48_S48x192_S6144x192_1_0_0_1_n_n.lhsIdx i q 0).val = (i 0).val := by
  unfold DotDims.lhsIdx
  rw [dif_neg (show ¬(0 : Fin S6144x48.rank) ∈ dot_S6144x48_S48x192_S6144x192_1_0_0_1_n_n.lhsBatch by decide), dif_pos (show (0 : Fin S6144x48.rank) ∈ dot_S6144x48_S48x192_S6144x192_1_0_0_1_n_n.lhsNonContracting by decide)]
  rfl
/-- … at the shared position. -/
theorem lhs_tail_1 (i : S6144x192.Idx) (q : dot_S6144x48_S48x192_S6144x192_1_0_0_1_n_n.contr.Idx) :
    (dot_S6144x48_S48x192_S6144x192_1_0_0_1_n_n.lhsIdx i q 1).val = (q ⟨0, by decide⟩).val :=
  dot_S6144x48_S48x192_S6144x192_1_0_0_1_n_n.lhsIdx_val_of_single rfl i q
/-- The right operand is read at the shared position … -/
theorem rhs_tail_0 (i : S6144x192.Idx) (q : dot_S6144x48_S48x192_S6144x192_1_0_0_1_n_n.contr.Idx) :
    (dot_S6144x48_S48x192_S6144x192_1_0_0_1_n_n.rhsIdx i q 0).val = (q ⟨0, by decide⟩).val :=
  dot_S6144x48_S48x192_S6144x192_1_0_0_1_n_n.rhsIdx_val_of_single rfl i q
/-- … in the output's column. -/
theorem rhs_tail_1 (i : S6144x192.Idx) (q : dot_S6144x48_S48x192_S6144x192_1_0_0_1_n_n.contr.Idx) :
    (dot_S6144x48_S48x192_S6144x192_1_0_0_1_n_n.rhsIdx i q 1).val = (i 1).val := by
  unfold DotDims.rhsIdx
  rw [dif_neg (show ¬(1 : Fin S48x192.rank) ∈ dot_S6144x48_S48x192_S6144x192_1_0_0_1_n_n.rhsBatch by decide), dif_pos (show (1 : Fin S48x192.rank) ∈ dot_S6144x48_S48x192_S6144x192_1_0_0_1_n_n.rhsNonContracting by decide)]
  rfl

/-- The `6144 × 48` by `48 × 192` product into zero, read at `(row, col)`: the sum over the 48 shared positions. -/
theorem tailMatmul_apply (L : FVec Ideal S6144x48 .bf16) (R : FVec Ideal S48x192 .bf16) (row : Fin 6144) (col : Fin 192) :
    matmul dot_S6144x48_S48x192_S6144x192_1_0_0_1_n_n none L R (constant (F := Ideal) S6144x192 .f32 0x00000000#32) (ix2 row col)
      = ∑ r2 : Fin 48, L (ix2 row r2) * R (ix2 r2 col) := by
  simp only [matmul]
  rw [Ideal.matmul_constant_zero_apply, ← Equiv.sum_comp (contrEquiv1 dot_S6144x48_S48x192_S6144x192_1_0_0_1_n_n 48 rfl rfl).symm]
  refine Finset.sum_congr rfl fun k _ => ?_
  have hk := contrEquiv1_symm_val dot_S6144x48_S48x192_S6144x192_1_0_0_1_n_n 48 rfl rfl k
  have el : dot_S6144x48_S48x192_S6144x192_1_0_0_1_n_n.lhsIdx (ix2 row col) ((contrEquiv1 dot_S6144x48_S48x192_S6144x192_1_0_0_1_n_n 48 rfl rfl).symm k) = ix2 row k := funext fun a => Fin.ext (by
    match a with
    | ⟨0, _⟩ => exact lhs_tail_0 _ _
    | ⟨1, _⟩ => exact (lhs_tail_1 _ _).trans hk)
  have er : dot_S6144x48_S48x192_S6144x192_1_0_0_1_n_n.rhsIdx (ix2 row col) ((contrEquiv1 dot_S6144x48_S48x192_S6144x192_1_0_0_1_n_n 48 rfl rfl).symm k) = ix2 k col := funext fun a => Fin.ext (by
    match a with
    | ⟨0, _⟩ => exact (rhs_tail_0 _ _).trans hk
    | ⟨1, _⟩ => exact rhs_tail_1 _ _)
  rw [el, er]

/-- The per-row transposes flattened to `6144 × 48`, read at `(n · 192 + k, r2)`: the operand at `(n, r2, k)`. -/
theorem tailLhs_apply (v38 : FVec Ideal S32x48x192 .f32) (n : Fin 32) (k : Fin 192) (r2 : Fin 48) :
    shapeCast S6144x48 (transpose S32x192x48 [0, 2, 1] v38 transposes_S32x48x192_p0_2_1_S32x192x48) shapeCasts_S32x192x48_S6144x48
      (ix2 (row192 n k) r2) = v38 (ix3 n r2 k) := by
  refine (shapeCast_apply _ shapeCasts_S32x192x48_S6144x48 (ix2 (row192 n k) r2) (ix3 n k r2) ?_).trans ?_
  · rw [Shape.rowMajor_val_two, Shape.rowMajor_val_three]
    show (n.val * 192 + k.val) * 48 + r2.val = (n.val * 192 + k.val) * 48 + r2.val
    rfl
  · exact transpose_ix3_021_apply v38 transposes_S32x48x192_p0_2_1_S32x192x48 n k r2

end BodySmax

open BodySmax

/-- Entry `(n, r1)` of the softmax block is the softmax of row `n` at `r1`. -/
theorem smV_apply (v : FVec Ideal S32x256 .f32) (n : Fin 32) (r1 : Fin 256) :
    smV (F := Ideal) v (ix2 n r1) = smax (cur (a := 32) (b := 256) v n) r1 := by
  rw [smV_eq]
  refine (divf_apply _ _ (ix2 n r1)).trans ?_
  rw [expB_apply, sumB_apply]
  rfl

/-- Entry `(n, q)` of the last product: the sum over `r2` of the decode's entry `(n, r2, q / 192)` times `sb`'s entry
    `(r2, q % 192)`. -/
theorem tailV_apply (v38 : FVec Ideal S32x48x192 .f32) (w6 : Vec Ideal S48x192 .bf16) (n : Fin 32) (q : Fin 36864) :
    tailV (F := Ideal) v38 w6 (ix2 n q)
      = ∑ r2 : Fin 48, v38 (ix3 n r2 (hi192 q)) * cur (a := 48) (b := 192) w6 r2 (lo192 q) := by
  unfold tailV
  refine (shapeCast_apply _ shapeCasts_S6144x192_S32x36864 (ix2 n q) (ix2 (row192 n (hi192 q)) (lo192 q)) ?_).trans ?_
  · rw [Shape.rowMajor_val_two, Shape.rowMajor_val_two]
    show (n.val * 192 + q.val / 192) * 192 + q.val % 192 = n.val * 36864 + q.val
    omega
  refine (tailMatmul_apply _ _ (row192 n (hi192 q)) (lo192 q)).trans ?_
  refine Finset.sum_congr rfl fun r2 _ => ?_
  rw [shapeCast_self]
  refine congrArg (· * w6 (ix2 r2 (lo192 q))) ?_
  exact tailLhs_apply v38 n (hi192 q) r2

end Cert.Tucker

end
-- ==== Proof.BodyDec.lean ====
/-
  The decode stretch of the body, read at one entry.

  The stretch is two products with a re-laying after each.  The first product, rows of `s` (32 × 256) against `rp`
  (256 × 2304), gives a 32 × 2304 block whose row `n` is then read as a 48 × 48 matrix: position `r2 · 48 + r3` of the row
  becomes entry `(n · 48 + r2, r3)` of a 1536 × 48 block, the row-major position `(n · 2304) + r2 · 48 + r3` being the same
  on both sides.  The second product contracts that last axis `r3` against `sc` (48 × 192), and the 1536 × 192 result is
  read back as 32 × 48 × 192 with `(n · 48 + r2, k)` at `(n, r2, k)`.  Changes of float format and casts to the same shape
  are the identity on extended reals.  So the entry at `(n, r2, k)` is
      Σ_{r3} (Σ_{r1} s[n, r1] · rp[r1, r2 · 48 + r3]) · sc[r3, k].
-/
import proofs.«139005_j67740224193011_1_alg».proof.Proof.BodyStages
import proofs.«139005_j67740224193011_1_alg».proof.Proof.SpecArr
import Idealize.ShloMosaic.Lib.ValueIdx
import Idealize.ShloMosaic.Lib.ValueLayout
import Idealize.ShloMosaic.Lib.Pipeline.Value
import Idealize.ShloMosaic.PureOps.Ideal.Laws

noncomputable section

namespace Cert.Tucker

open Cert.KernelIdeal Cert.KernelIdeal.Gen Idealize.ShloMosaic Idealize.ShloMosaic.ValueIdx

/-! ### The two products' operand indices

For a product with one contracted axis (the left operand's axis 1 against the right operand's axis 0), the left
operand's index at output `(i, j)` and contraction coordinate `c` is `(i, c)` and the right operand's is `(c, j)`. -/

theorem lhs_dec1_0 (i : S32x2304.Idx) (q : dot_S32x256_S256x2304_S32x2304_1_0_0_1_n_n.contr.Idx) :
    (dot_S32x256_S256x2304_S32x2304_1_0_0_1_n_n.lhsIdx i q 0).val = (i 0).val := by
  unfold DotDims.lhsIdx
  rw [dif_neg (show ¬(0 : Fin S32x256.rank) ∈ dot_S32x256_S256x2304_S32x2304_1_0_0_1_n_n.lhsBatch by decide), dif_pos (show (0 : Fin S32x256.rank) ∈ dot_S32x256_S256x2304_S32x2304_1_0_0_1_n_n.lhsNonContracting by decide)]
  rfl
theorem lhs_dec1_1 (i : S32x2304.Idx) (q : dot_S32x256_S256x2304_S32x2304_1_0_0_1_n_n.contr.Idx) :
    (dot_S32x256_S256x2304_S32x2304_1_0_0_1_n_n.lhsIdx i q 1).val = (q ⟨0, by decide⟩).val :=
  dot_S32x256_S256x2304_S32x2304_1_0_0_1_n_n.lhsIdx_val_of_single rfl i q
theorem rhs_dec1_0 (i : S32x2304.Idx) (q : dot_S32x256_S256x2304_S32x2304_1_0_0_1_n_n.contr.Idx) :
    (dot_S32x256_S256x2304_S32x2304_1_0_0_1_n_n.rhsIdx i q 0).val = (q ⟨0, by decide⟩).val :=
  dot_S32x256_S256x2304_S32x2304_1_0_0_1_n_n.rhsIdx_val_of_single rfl i q
theorem rhs_dec1_1 (i : S32x2304.Idx) (q : dot_S32x256_S256x2304_S32x2304_1_0_0_1_n_n.contr.Idx) :
    (dot_S32x256_S256x2304_S32x2304_1_0_0_1_n_n.rhsIdx i q 1).val = (i 1).val := by
  unfold DotDims.rhsIdx
  rw [dif_neg (show ¬(1 : Fin S256x2304.rank) ∈ dot_S32x256_S256x2304_S32x2304_1_0_0_1_n_n.rhsBatch by decide), dif_pos (show (1 : Fin S256x2304.rank) ∈ dot_S32x256_S256x2304_S32x2304_1_0_0_1_n_n.rhsNonContracting by decide)]
  rfl

theorem lhs_dec2_0 (i : S1536x192.Idx) (q : dot_S1536x48_S48x192_S1536x192_1_0_0_1_n_n.contr.Idx) :
    (dot_S1536x48_S48x192_S1536x192_1_0_0_1_n_n.lhsIdx i q 0).val = (i 0).val := by
  unfold DotDims.lhsIdx
  rw [dif_neg (show ¬(0 : Fin S1536x48.rank) ∈ dot_S1536x48_S48x192_S1536x192_1_0_0_1_n_n.lhsBatch by decide), dif_pos (show (0 : Fin S1536x48.rank) ∈ dot_S1536x48_S48x192_S1536x192_1_0_0_1_n_n.lhsNonContracting by decide)]
  rfl
theorem lhs_dec2_1 (i : S1536x192.Idx) (q : dot_S1536x48_S48x192_S1536x192_1_0_0_1_n_n.contr.Idx) :
    (dot_S1536x48_S48x192_S1536x192_1_0_0_1_n_n.lhsIdx i q 1).val = (q ⟨0, by decide⟩).val :=
  dot_S1536x48_S48x192_S1536x192_1_0_0_1_n_n.lhsIdx_val_of_single rfl i q
theorem rhs_dec2_0 (i : S1536x192.Idx) (q : dot_S1536x48_S48x192_S1536x192_1_0_0_1_n_n.contr.Idx) :
    (dot_S1536x48_S48x192_S1536x192_1_0_0_1_n_n.rhsIdx i q 0).val = (q ⟨0, by decide⟩).val :=
  dot_S1536x48_S48x192_S1536x192_1_0_0_1_n_n.rhsIdx_val_of_single rfl i q
theorem rhs_dec2_1 (i : S1536x192.Idx) (q : dot_S1536x48_S48x192_S1536x192_1_0_0_1_n_n.contr.Idx) :
    (dot_S1536x48_S48x192_S1536x192_1_0_0_1_n_n.rhsIdx i q 1).val = (i 1).val := by
  unfold DotDims.rhsIdx
  rw [dif_neg (show ¬(1 : Fin S48x192.rank) ∈ dot_S1536x48_S48x192_S1536x192_1_0_0_1_n_n.rhsBatch by decide), dif_pos (show (1 : Fin S48x192.rank) ∈ dot_S1536x48_S48x192_S1536x192_1_0_0_1_n_n.rhsNonContracting by decide)]
  rfl

/-! ### The two products at an entry -/

/-- The 32 × 256 by 256 × 2304 product into zero, at entry `(i, j)`: the sum over the 256 contracted positions. -/
theorem mm_dec1_apply (x : FVec Ideal S32x256 .bf16) (y : FVec Ideal S256x2304 .bf16) (i : Fin 32) (j : Fin 2304) :
    matmul dot_S32x256_S256x2304_S32x2304_1_0_0_1_n_n none x y (constant (F := Ideal) S32x2304 .f32 0x00000000#32) (ix2 i j)
      = ∑ c : Fin 256, x (ix2 i c) * y (ix2 c j) := by
  simp only [matmul]
  rw [Ideal.matmul_constant_zero_apply, ← Equiv.sum_comp (contrEquiv1 dot_S32x256_S256x2304_S32x2304_1_0_0_1_n_n 256 rfl rfl).symm]
  refine Finset.sum_congr rfl fun c _ => ?_
  have hc := contrEquiv1_symm_val dot_S32x256_S256x2304_S32x2304_1_0_0_1_n_n 256 rfl rfl c
  have el : dot_S32x256_S256x2304_S32x2304_1_0_0_1_n_n.lhsIdx (ix2 i j) ((contrEquiv1 dot_S32x256_S256x2304_S32x2304_1_0_0_1_n_n 256 rfl rfl).symm c) = ix2 i c := funext fun a => Fin.ext (by
    match a with
    | ⟨0, _⟩ => exact lhs_dec1_0 _ _
    | ⟨1, _⟩ => exact (lhs_dec1_1 _ _).trans hc)
  have er : dot_S32x256_S256x2304_S32x2304_1_0_0_1_n_n.rhsIdx (ix2 i j) ((contrEquiv1 dot_S32x256_S256x2304_S32x2304_1_0_0_1_n_n 256 rfl rfl).symm c) = ix2 c j := funext fun a => Fin.ext (by
    match a with
    | ⟨0, _⟩ => exact (rhs_dec1_0 _ _).trans hc
    | ⟨1, _⟩ => exact rhs_dec1_1 _ _)
  rw [el, er]

/-- The 1536 × 48 by 48 × 192 product into zero, at entry `(i, j)`: the sum over the 48 contracted positions. -/
theorem mm_dec2_apply (x : FVec Ideal S1536x48 .bf16) (y : FVec Ideal S48x192 .bf16) (i : Fin 1536) (j : Fin 192) :
    matmul dot_S1536x48_S48x192_S1536x192_1_0_0_1_n_n none x y (constant (F := Ideal) S1536x192 .f32 0x00000000#32) (ix2 i j)
      = ∑ c : Fin 48, x (ix2 i c) * y (ix2 c j) := by
  simp only [matmul]
  rw [Ideal.matmul_constant_zero_apply, ← Equiv.sum_comp (contrEquiv1 dot_S1536x48_S48x192_S1536x192_1_0_0_1_n_n 48 rfl rfl).symm]
  refine Finset.sum_congr rfl fun c _ => ?_
  have hc := contrEquiv1_symm_val dot_S1536x48_S48x192_S1536x192_1_0_0_1_n_n 48 rfl rfl c
  have el : dot_S1536x48_S48x192_S1536x192_1_0_0_1_n_n.lhsIdx (ix2 i j) ((contrEquiv1 dot_S1536x48_S48x192_S1536x192_1_0_0_1_n_n 48 rfl rfl).symm c) = ix2 i c := funext fun a => Fin.ext (by
    match a with
    | ⟨0, _⟩ => exact lhs_dec2_0 _ _
    | ⟨1, _⟩ => exact (lhs_dec2_1 _ _).trans hc)
  have er : dot_S1536x48_S48x192_S1536x192_1_0_0_1_n_n.rhsIdx (ix2 i j) ((contrEquiv1 dot_S1536x48_S48x192_S1536x192_1_0_0_1_n_n 48 rfl rfl).symm c) = ix2 c j := funext fun a => Fin.ext (by
    match a with
    | ⟨0, _⟩ => exact (rhs_dec2_0 _ _).trans hc
    | ⟨1, _⟩ => exact rhs_dec2_1 _ _)
  rw [el, er]

/-! ### The two re-layings at an entry -/

/-- Row `n · 48 + r2` of the 1536 × 48 reading of a 32 × 2304 block. -/
def row48 (n : Fin 32) (r2 : Fin 48) : Fin 1536 := ⟨n.val * 48 + r2.val, by have := n.isLt; have := r2.isLt; omega⟩

/-- A 32 × 2304 block read as 1536 × 48: entry `(n · 48 + r2, r3)` is entry `(n, r2 · 48 + r3)`, both at row-major position
    `n · 2304 + r2 · 48 + r3`. -/
theorem cast_S32x2304_S1536x48_apply {α : Type} (v : S32x2304.Idx → α) (n : Fin 32) (r2 r3 : Fin 48) :
    shapeCast S1536x48 v shapeCasts_S32x2304_S1536x48 (ix2 (row48 n r2) r3) = v (ix2 n (pr r2 r3)) := by
  refine shapeCast_apply v shapeCasts_S32x2304_S1536x48 (ix2 (row48 n r2) r3) (ix2 n (pr r2 r3)) ?_
  rw [Shape.rowMajor_val_two, Shape.rowMajor_val_two]
  show n.val * 2304 + (r2.val * 48 + r3.val) = (n.val * 48 + r2.val) * 48 + r3.val
  omega

/-- A 1536 × 192 block read as 32 × 48 × 192: entry `(n, r2, k)` is entry `(n · 48 + r2, k)`, both at row-major position
    `(n · 48 + r2) · 192 + k`. -/
theorem cast_S1536x192_S32x48x192_apply {α : Type} (v : S1536x192.Idx → α) (n : Fin 32) (r2 : Fin 48) (k : Fin 192) :
    shapeCast S32x48x192 v shapeCasts_S1536x192_S32x48x192 (ix3 n r2 k) = v (ix2 (row48 n r2) k) := by
  refine shapeCast_apply v shapeCasts_S1536x192_S32x48x192 (ix3 n r2 k) (ix2 (row48 n r2) k) ?_
  rw [Shape.rowMajor_val_two, Shape.rowMajor_val_three]
  show (n.val * 48 + r2.val) * 192 + k.val = (n.val * 48 + r2.val) * 192 + k.val
  rfl

/-! ### The stretch at an entry -/

/-- Entry `(n, r2, k)` of the decode: the sum over `r3` of (row `n` of `s` against column `r2 · 48 + r3` of `rp`) times
    `sc`'s entry `(r3, k)`. -/
theorem decV_apply (s : FVec Ideal S32x256 .bf16) (w4 : Vec Ideal S256x2304 .bf16) (w5 : Vec Ideal S48x192 .bf16)
    (n : Fin 32) (r2 : Fin 48) (k : Fin 192) :
    decV (F := Ideal) s w4 w5 (ix3 n r2 k)
      = ∑ r3 : Fin 48, (∑ r1 : Fin 256, cur (a := 32) (b := 256) s n r1 * cur (a := 256) (b := 2304) w4 r1 (pr r2 r3))
          * cur (a := 48) (b := 192) w5 r3 k := by
  unfold decV
  refine (cast_S1536x192_S32x48x192_apply _ n r2 k).trans ?_
  refine (mm_dec2_apply _ _ (row48 n r2) k).trans ?_
  refine Finset.sum_congr rfl fun r3 _ => ?_
  rw [shapeCast_self, truncf_apply, cast_S32x2304_S1536x48_apply, mm_dec1_apply, shapeCast_self]
  rfl

end Cert.Tucker

end
-- ==== Proof.KernelBody.lean ====
/-
  The kernel body's stored value, read at one index of the block: the four stretches composed.
-/
import proofs.«139005_j67740224193011_1_alg».proof.Proof.BodyEnc
import proofs.«139005_j67740224193011_1_alg».proof.Proof.BodySmax
import proofs.«139005_j67740224193011_1_alg».proof.Proof.BodyDec
import Idealize.ShloMosaic.Lib.ValueIdx
import Idealize.ShloMosaic.Lib.ValueLayout
import Idealize.ShloMosaic.Lib.Pipeline.Value
import Idealize.ShloMosaic.PureOps.Ideal.Laws

noncomputable section

namespace Cert.Tucker

open Cert.KernelIdeal Cert.KernelIdeal.Gen Idealize.ShloMosaic Idealize.ShloMosaic.ValueIdx

/-- Entry `(n, q)` of the 32 × 36864 block the body stores is the kernel's spelling `outK` of row `n` of the loaded
    data block and the six small operands as loaded, at `(q / 192, q % 192)`: the last product over the decode, the
    decode over the softmax (a change of float format is the identity on extended reals), the softmax over the code. -/
theorem payload_apply (x0 : Vec Ideal S32x36864 .f32) (w1 w2 : Vec Ideal S192x48 .bf16) (w3 : Vec Ideal S2304x256 .bf16)
    (w4 : Vec Ideal S256x2304 .bf16) (w5 w6 : Vec Ideal S48x192 .bf16) (n : Fin 32) (q : Fin 36864) :
    k0_pay1 (F := Ideal) (k0_pay2 (F := Ideal) x0 w1 w2 w3 w4 w5) w6 (ix2 n q)
      = outK (cur (a := 32) (b := 36864) x0 n) (cur (a := 192) (b := 48) w1) (cur (a := 192) (b := 48) w2)
          (cur (a := 2304) (b := 256) w3) (cur (a := 256) (b := 2304) w4) (cur (a := 48) (b := 192) w5)
          (cur (a := 48) (b := 192) w6) (hi192 q) (lo192 q) := by
  have hcode : cur (a := 32) (b := 256) (encV (F := Ideal) x0 w1 w2 w3) n
      = encK (cur (a := 32) (b := 36864) x0 n) (cur (a := 192) (b := 48) w1) (cur (a := 192) (b := 48) w2)
          (cur (a := 2304) (b := 256) w3) := funext fun r1 => encV_apply x0 w1 w2 w3 n r1
  rw [pay1_eq, pay2_eq, tailV_apply]
  unfold outK
  refine Finset.sum_congr rfl fun r2 _ => ?_
  rw [decV_apply]
  refine congrArg (· * _) (Finset.sum_congr rfl fun r3 _ => congrArg (· * _) (Finset.sum_congr rfl fun r1 _ => congrArg (· * _) ?_))
  show smV (F := Ideal) (encV (F := Ideal) x0 w1 w2 w3) (ix2 n r1) = _
  rw [smV_apply, hcode]

end Cert.Tucker

end
-- ==== Proof.KArgs.lean ====
/-
  The kernel program's seven argument arrays on a device, named as arrays of extended reals.
-/
import proofs.«139005_j67740224193011_1_alg».proof.KernelIdeal
import proofs.«139005_j67740224193011_1_alg».proof.Proof.SpecArr

noncomputable section

namespace Cert.Tucker

open Cert.KernelIdeal Idealize.ShloMosaic Idealize.ShloMosaic.TcCoe Idealize.SL.Sem

variable (m : (ℓ : Loc nD τ sig) → Buf (Elt Ideal) ℓ) (c : Dev nD)

/-- The data matrix `X` (2048 rows of 192 · 192 entries). -/
abbrev argX : A2 2048 36864 := m ((c : Thread nD τ).loc main_arg0)
/-- `B` (192 × 48). -/
abbrev argB : A2 192 48 := m ((c : Thread nD τ).loc main_arg1)
/-- `C` (192 × 48). -/
abbrev argC : A2 192 48 := m ((c : Thread nD τ).loc main_arg2)
/-- `G` (256 × 2304). -/
abbrev argG : A2 256 2304 := m ((c : Thread nD τ).loc main_arg3)
/-- `B_inv` (48 × 192). -/
abbrev argBi : A2 48 192 := m ((c : Thread nD τ).loc main_arg4)
/-- `C_inv` (48 × 192). -/
abbrev argCi : A2 48 192 := m ((c : Thread nD τ).loc main_arg5)
/-- `G_inv` (2304 × 256). -/
abbrev argGi : A2 2304 256 := m ((c : Thread nD τ).loc main_arg6)

end Cert.Tucker

end
-- ==== Proof.KernelHost.lean ====
/-
  The six small operands of the call, as the host lines before it make them from the arguments, read at an index.

  Each operand is a short composition of layout operations (transpose, reshape), pointwise operations (maximum with
  zero, subtract, exponential, divide, the change of number format, which on extended reals is the identity) and row
  reductions (maximum from `-∞`, sum from `0`).  For each operand the composition is first written out as ONE term
  over the argument arrays; that term is then read at an index, one operation at a time:
    • a transpose of a matrix at `(j, i)` is the operand at `(i, j)`;
    • a reshape keeps the row-major position, so `[2304, 256] → [48, 48, 256]` sends `(p, r)` to `(p / 48, p % 48, r)`
      and back, and the transpose in between swaps the two coordinates of `p`: row `p` becomes row
      `(p % 48) · 48 + p / 48`;
    • a row maximum is a fold of `max` over the row, a row sum a finite sum over the row;
    • a column `[192] → [192, 1] → [192, 48]` broadcast reads the row's own entry at every column.
-/
import proofs.«139005_j67740224193011_1_alg».proof.Proof.Gen.KernelIdeal.Frame
import proofs.«139005_j67740224193011_1_alg».proof.Proof.KArgs
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.Tucker

open Cert.KernelIdeal Cert.KernelIdeal.Gen Idealize.ShloMosaic Idealize.ShloMosaic.TcCoe Idealize.SL.Sem
open Idealize.ShloMosaic.ValueIdx

/-! ### The row softmax as the host lines spell it, over any 192 × 48 array -/

/-- In the row reduction of a 192 × 48 array, the index over row `k` with column `j` inserted is `(k, j)`. -/
theorem hostRow_lift (h : S192x48.Reduces [1] S192) (k : Fin 192) (j : Fin 48) : h.lift (ix1 k) j = ix2 k j :=
  funext fun a => Fin.ext (by match a with | ⟨0, _⟩ => rfl | ⟨1, _⟩ => rfl)

/-- A vector of 192 entries laid out as a column and repeated over 48 columns reads, at `(k, r)`, its entry `k`. -/
theorem bcast_col_apply (v : S192.Idx → EReal) (k : Fin 192) (r : Fin 48) :
    broadcastInDim S192x48 ![0, 1] bcast_S192x1_S192x48_0_1 (broadcastInDim S192x1 ![0] bcast_S192_S192x1_0 v) (ix2 k r)
      = v (ix1 k) := by
  refine (broadcastInDim_apply _ bcast_S192x1_S192x48_0_1 _ (ix2 k r) (ix2 k (0 : Fin 1)) (fun a => match a with
    | ⟨0, _⟩ => by show k.val = if (192 : Nat) = 1 then 0 else k.val; rw [if_neg (by decide)]
    | ⟨1, _⟩ => by show 0 = if (1 : Nat) = 1 then 0 else r.val; rw [if_pos rfl])).trans ?_
  exact broadcastInDim_apply _ bcast_S192_S192x1_0 v (ix2 k (0 : Fin 1)) (ix1 k) (fun a => match a with
    | ⟨0, _⟩ => by show k.val = if (192 : Nat) = 1 then 0 else k.val; rw [if_neg (by decide)])

/-- The row maxima: the fold of `max` over each row from `-∞`, then the maximum with `-∞` once more. -/
def hostMax (x : A2 192 48) : S192.Idx → EReal :=
  maximumf (F := Ideal) (φ := .f32) (broadcastInDim S192 ![] bcast_S_S192 (constant (F := Ideal) S_ .f32 0xFF800000#32))
    (Host.reduce (FloatOps.maximumf (F := Ideal) (φ := .f32)) x (constant (F := Ideal) S_ .f32 0xFF800000#32)
      reducesTo_S192x48_S192_d1 h_S_)

theorem hostMax_apply (x : A2 192 48) (k : Fin 192) : hostMax x (ix1 k) = rowMax (cur x k) := by
  have h : S192x48.Reduces [1] S192 := by decide
  show max (broadcastInDim S192 ![] bcast_S_S192 (constant (F := Ideal) S_ .f32 0xFF800000#32) (ix1 k))
      (Host.reduce (FloatOps.maximumf (F := Ideal) (φ := .f32)) x (constant (F := Ideal) S_ .f32 0xFF800000#32)
        reducesTo_S192x48_S192_d1 h_S_ (ix1 k))
    = max negInf (Finset.univ.fold max negInf (cur x k))
  refine congrArg₂ max ?_ ?_
  · exact broadcastInDim_apply _ bcast_S_S192 _ (ix1 k) ix0 (fun a => a.elim0)
  · refine (Host.reduce_eq_fold_single _ x _ reducesTo_S192x48_S192_d1 h h_S_ (ix1 k)).trans ?_
    have hl : x ∘ h.lift (ix1 k) = cur x k := funext fun j => congrArg x (hostRow_lift h k j)
    rw [hl]
    rfl

/-- The exponentials of the entries less their row's maximum. -/
def hostExp (x : A2 192 48) : S192x48.Idx → EReal :=
  Host.exp (F := Ideal) (φ := .f32) (subf (F := Ideal) (φ := .f32) x
    (broadcastInDim S192x48 ![0, 1] bcast_S192x1_S192x48_0_1 (broadcastInDim S192x1 ![0] bcast_S192_S192x1_0 (hostMax x))))

theorem hostExp_apply (x : A2 192 48) (k : Fin 192) (r : Fin 48) :
    hostExp x (ix2 k r) = Ideal.exp (cur x k r - rowMax (cur x k)) := by
  show Ideal.exp (x (ix2 k r)
      - broadcastInDim S192x48 ![0, 1] bcast_S192x1_S192x48_0_1 (broadcastInDim S192x1 ![0] bcast_S192_S192x1_0 (hostMax x)) (ix2 k r))
    = Ideal.exp (x (ix2 k r) - rowMax (cur x k))
  exact congrArg (fun t => Ideal.exp (x (ix2 k r) - t)) ((bcast_col_apply _ k r).trans (hostMax_apply x k))

/-- The row sums of those exponentials, from `0`. -/
def hostSum (x : A2 192 48) : S192.Idx → EReal :=
  Host.reduceAdd (F := Ideal) (φ := .f32) (hostExp x) (constant (F := Ideal) S_ .f32 0x00000000#32) reducesTo_S192x48_S192_d1 h_S_

theorem hostSum_apply (x : A2 192 48) (k : Fin 192) :
    hostSum x (ix1 k) = ∑ j : Fin 48, Ideal.exp (cur x k j - rowMax (cur x k)) := by
  have h : S192x48.Reduces [1] S192 := by decide
  show Ideal.hostReduceAdd reducesTo_S192x48_S192_d1 (hostExp x) (Ideal.ofBits .f32 0x00000000#32) (ix1 k) = _
  rw [Ideal.hostReduceAdd_single reducesTo_S192x48_S192_d1 h, Ideal.ofBits_zero_f32, zero_add]
  exact Finset.sum_congr rfl fun j _ => (congrArg (hostExp x) (hostRow_lift h k j)).trans (hostExp_apply x k j)

/-- The row softmax: each exponential over its row's sum. -/
def hostSmax (x : A2 192 48) : A2 192 48 :=
  Host.divf (F := Ideal) (φ := .f32) (hostExp x)
    (broadcastInDim S192x48 ![0, 1] bcast_S192x1_S192x48_0_1 (broadcastInDim S192x1 ![0] bcast_S192_S192x1_0 (hostSum x)))

/-- The host lines' softmax at `(k, r)` is the softmax of row `k` at `r`. -/
theorem hostSmax_apply (x : A2 192 48) (k : Fin 192) (r : Fin 48) : hostSmax x (ix2 k r) = smax (cur x k) r := by
  show Ideal.div (hostExp x (ix2 k r))
      (broadcastInDim S192x48 ![0, 1] bcast_S192x1_S192x48_0_1 (broadcastInDim S192x1 ![0] bcast_S192_S192x1_0 (hostSum x)) (ix2 k r))
    = Ideal.div (Ideal.exp (cur x k r - rowMax (cur x k))) (∑ j : Fin 48, Ideal.exp (cur x k j - rowMax (cur x k)))
  exact congrArg₂ Ideal.div (hostExp_apply x k r) ((bcast_col_apply _ k r).trans (hostSum_apply x k))

/-! ### The six operands as terms over the arguments -/

variable (m : (ℓ : Loc nD τ sig) → Buf (Elt Ideal) ℓ) (c : Dev nD)

theorem V32_eq : (V m c main_v32 : A2 192 48)
    = truncf (F := Ideal) .bf16 (transpose S192x48 [1, 0] (argBi m c) transposes_S48x192_S192x48_1_0) bitsLt_bf16_f32 := by
  dsimp only [Gen.V]
  simp only [Gen.hostOps0, Gen.hostOps0_1, Gen.hostOps0_2, List.flatten_cons, List.flatten_nil, List.append_nil, List.cons_append,
    List.nil_append]
  after_results

theorem V34_eq : (V m c main_v34 : A2 192 48)
    = truncf (F := Ideal) .bf16 (transpose S192x48 [1, 0] (argCi m c) transposes_S48x192_S192x48_1_0) bitsLt_bf16_f32 := by
  dsimp only [Gen.V]
  simp only [Gen.hostOps0, Gen.hostOps0_1, Gen.hostOps0_2, List.flatten_cons, List.flatten_nil, List.append_nil, List.cons_append,
    List.nil_append]
  after_results

theorem V3_eq : (V m c main_v3 : A2 2304 256)
    = truncf (F := Ideal) .bf16 (shapeCast S2304x256 (transpose S48x48x256 [1, 0, 2]
        (shapeCast S48x48x256 (argGi m c) shapeCasts_S2304x256_S48x48x256) transposes_S48x48x256_S48x48x256_1_0_2)
        shapeCasts_S48x48x256_S2304x256) bitsLt_bf16_f32 := by
  dsimp only [Gen.V]
  simp only [Gen.hostOps0, Gen.hostOps0_1, Gen.hostOps0_2, List.flatten_cons, List.flatten_nil, List.append_nil, List.cons_append,
    List.nil_append]
  after_results
  rfl

theorem V8_eq : (V m c main_v8 : A2 256 2304)
    = truncf (F := Ideal) .bf16 (shapeCast S256x2304 (transpose S256x48x48 [0, 2, 1]
        (shapeCast S256x48x48 (maximumf (F := Ideal) (φ := .f32) (argG m c)
          (broadcastInDim S256x2304 ![] bcast_S_S256x2304 (constant (F := Ideal) S_ .f32 0x00000000#32)))
          shapeCasts_S256x2304_S256x48x48) transposes_S256x48x48_S256x48x48_0_2_1)
        shapeCasts_S256x48x48_S256x2304) bitsLt_bf16_f32 := by
  dsimp only [Gen.V]
  simp only [Gen.hostOps0, Gen.hostOps0_1, Gen.hostOps0_2, List.flatten_cons, List.flatten_nil, List.append_nil, List.cons_append,
    List.nil_append]
  after_results
  rfl

theorem V36_eq : (V m c main_v36 : A2 48 192)
    = truncf (F := Ideal) .bf16 (transpose S48x192 [1, 0] (hostSmax (argC m c)) transposes_S192x48_S48x192_1_0) bitsLt_bf16_f32 := by
  dsimp only [Gen.V]
  simp only [Gen.hostOps0, Gen.hostOps0_1, Gen.hostOps0_2, List.flatten_cons, List.flatten_nil, List.append_nil, List.cons_append,
    List.nil_append]
  after_results_simp
  rfl

theorem V38_eq : (V m c main_v38 : A2 48 192)
    = truncf (F := Ideal) .bf16 (transpose S48x192 [1, 0] (hostSmax (argB m c)) transposes_S192x48_S48x192_1_0) bitsLt_bf16_f32 := by
  dsimp only [Gen.V]
  simp only [Gen.hostOps0, Gen.hostOps0_1, Gen.hostOps0_2, List.flatten_cons, List.flatten_nil, List.append_nil, List.cons_append,
    List.nil_append]
  after_results_simp
  rfl

/-! ### The six operands at an index -/

/-- Operand 1 is `B_inv` transposed. -/
theorem win1_apply (j : Fin 192) (r : Fin 48) : (V m c main_v32 : A2 192 48) (ix2 j r) = cur (argBi m c) r j := by
  rw [V32_eq]
  exact transpose_ix2_apply (argBi m c) transposes_S48x192_S192x48_1_0 j r
/-- Operand 2 is `C_inv` transposed. -/
theorem win2_apply (k : Fin 192) (r : Fin 48) : (V m c main_v34 : A2 192 48) (ix2 k r) = cur (argCi m c) r k := by
  rw [V34_eq]
  exact transpose_ix2_apply (argCi m c) transposes_S48x192_S192x48_1_0 k r
/-- Operand 3 is `G_inv` with its rows re-laid: row `p` is row `(p % 48) · 48 + p / 48` of `G_inv`. -/
theorem win3_apply (p : Fin 2304) (r1 : Fin 256) : (V m c main_v3 : A2 2304 256) (ix2 p r1) = cur (argGi m c) (swap48 p) r1 := by
  rw [V3_eq, truncf_apply]
  refine (shapeCast_apply _ shapeCasts_S48x48x256_S2304x256 (ix2 p r1) (ix3 (hi48 p) (lo48 p) r1) (by
    rw [Shape.rowMajor_val_two, Shape.rowMajor_val_three]
    show (p.val / 48 * 48 + p.val % 48) * 256 + r1.val = p.val * 256 + r1.val
    omega)).trans ?_
  refine (transpose_apply [1, 0, 2] _ transposes_S48x48x256_S48x48x256_1_0_2 (ix3 (hi48 p) (lo48 p) r1)
    (ix3 (lo48 p) (hi48 p) r1) (fun b => match b with | ⟨0, _⟩ => rfl | ⟨1, _⟩ => rfl | ⟨2, _⟩ => rfl)).trans ?_
  exact shapeCast_apply (argGi m c) shapeCasts_S2304x256_S48x48x256 (ix3 (lo48 p) (hi48 p) r1) (ix2 (swap48 p) r1) (by
    rw [Shape.rowMajor_val_two, Shape.rowMajor_val_three]
    show (p.val % 48 * 48 + p.val / 48) * 256 + r1.val = (p.val % 48 * 48 + p.val / 48) * 256 + r1.val
    rfl)
/-- Operand 4 is `relu G` with its columns re-laid the same way. -/
theorem win4_apply (r1 : Fin 256) (p : Fin 2304) : (V m c main_v8 : A2 256 2304) (ix2 r1 p) = relu (cur (argG m c) r1 (swap48 p)) := by
  rw [V8_eq, truncf_apply]
  refine (shapeCast_apply _ shapeCasts_S256x48x48_S256x2304 (ix2 r1 p) (ix3 r1 (hi48 p) (lo48 p)) (by
    rw [Shape.rowMajor_val_two, Shape.rowMajor_val_three]
    show (r1.val * 48 + p.val / 48) * 48 + p.val % 48 = r1.val * 2304 + p.val
    omega)).trans ?_
  refine (transpose_ix3_021_apply _ transposes_S256x48x48_S256x48x48_0_2_1 r1 (hi48 p) (lo48 p)).trans ?_
  refine (shapeCast_apply _ shapeCasts_S256x2304_S256x48x48 (ix3 r1 (lo48 p) (hi48 p)) (ix2 r1 (swap48 p)) (by
    rw [Shape.rowMajor_val_two, Shape.rowMajor_val_three]
    show r1.val * 2304 + (p.val % 48 * 48 + p.val / 48) = (r1.val * 48 + p.val % 48) * 48 + p.val / 48
    omega)).trans ?_
  show max (argG m c (ix2 r1 (swap48 p)))
      (broadcastInDim S256x2304 ![] bcast_S_S256x2304 (constant (F := Ideal) S_ .f32 0x00000000#32) (ix2 r1 (swap48 p)))
    = max (argG m c (ix2 r1 (swap48 p))) 0
  refine congrArg (max _) ?_
  exact (broadcastInDim_apply _ bcast_S_S256x2304 _ (ix2 r1 (swap48 p)) ix0 (fun a => a.elim0)).trans Ideal.ofBits_zero_f32
/-- Operand 5 is the row-softmax of `C`, transposed. -/
theorem win5_apply (r : Fin 48) (k : Fin 192) : (V m c main_v36 : A2 48 192) (ix2 r k) = smax (cur (argC m c) k) r := by
  rw [V36_eq]
  exact (transpose_ix2_apply (hostSmax (argC m c)) transposes_S192x48_S48x192_1_0 r k).trans (hostSmax_apply _ k r)
/-- Operand 6 is the row-softmax of `B`, transposed. -/
theorem win6_apply (r : Fin 48) (j : Fin 192) : (V m c main_v38 : A2 48 192) (ix2 r j) = smax (cur (argB m c) j) r := by
  rw [V38_eq]
  exact (transpose_ix2_apply (hostSmax (argB m c)) transposes_S192x48_S48x192_1_0 r j).trans (hostSmax_apply _ j r)

end Cert.Tucker

end
-- ==== Proof.KernelArray.lean ====
/-
  From blocks to the array.  Grid point `t` (of 64) reads rows `32 t … 32 t + 31` of the data matrix and the six small
  operands whole, and writes back rows `32 t … 32 t + 31` of the result: entry `(p, q)` of what it writes is the kernel's
  spelling of row `32 t + p` at `q`.  The 64 row blocks tile the 2048 rows, so after the run the result array is
  `kerArr` of the seven arguments.
-/
import proofs.«139005_j67740224193011_1_alg».proof.Proof.Gen.KernelIdeal.Value
import proofs.«139005_j67740224193011_1_alg».proof.Proof.KernelBody
import proofs.«139005_j67740224193011_1_alg».proof.Proof.KernelHost

noncomputable section

namespace Cert.Tucker

open Cert.KernelIdeal Cert.KernelIdeal.Gen Idealize.ShloMosaic Idealize.ShloMosaic.TcCoe Idealize.SL.Sem
open Idealize.ShloMosaic.ValueIdx
open Idealize.ShloMosaic.Pipeline (Dat)

theorem offs_zero : (![0, 0] : Fin 2 → Nat) = fun _ => 0 := funext fun a => by fin_cases a <;> rfl

/-- One block of the result from one block of rows, over variables: if the loaded data block is rows `32 tv + p` of `X`
    and the six loaded operands are what the host lines make of the arguments, the stored value at `y` is `kerArr` of the
    arguments at row `32 tv + y₀`, column `y₁`. -/
theorem block_eq (x0 : Vec Ideal S32x36864 .f32) (w1 w2 : Vec Ideal S192x48 .bf16) (w3 : Vec Ideal S2304x256 .bf16)
    (w4 : Vec Ideal S256x2304 .bf16) (w5 w6 : Vec Ideal S48x192 .bf16)
    (X : A2 2048 36864) (B C : A2 192 48) (G : A2 256 2304) (Bi Ci : A2 48 192) (Gi : A2 2304 256)
    (tv : ℕ) (ht : tv < 64)
    (h0 : ∀ (p : Fin 32) (q : Fin 36864), x0 (ix2 p q) = X (ix2 ⟨tv * 32 + p.val, by have := p.isLt; omega⟩ q))
    (h1 : ∀ (j : Fin 192) (r : Fin 48), w1 (ix2 j r) = cur Bi r j)
    (h2 : ∀ (k : Fin 192) (r : Fin 48), w2 (ix2 k r) = cur Ci r k)
    (h3 : ∀ (p : Fin 2304) (r1 : Fin 256), w3 (ix2 p r1) = cur Gi (swap48 p) r1)
    (h4 : ∀ (r1 : Fin 256) (p : Fin 2304), w4 (ix2 r1 p) = relu (cur G r1 (swap48 p)))
    (h5 : ∀ (r : Fin 48) (k : Fin 192), w5 (ix2 r k) = smax (cur C k) r)
    (h6 : ∀ (r : Fin 48) (j : Fin 192), w6 (ix2 r j) = smax (cur B j) r)
    (p : Fin 32) (q : Fin 36864) :
    k0_pay1 (F := Ideal) (k0_pay2 (F := Ideal) x0 w1 w2 w3 w4 w5) w6 (ix2 p q)
      = kerArr X B C G Bi Ci Gi (ix2 (⟨tv * 32 + p.val, by have := p.isLt; omega⟩ : Fin 2048) q) := by
  rw [payload_apply]
  have e0 : cur (a := 32) (b := 36864) x0 p = cur X ⟨tv * 32 + p.val, by have := p.isLt; omega⟩ := funext fun q' => h0 p q'
  have e1 : cur (a := 192) (b := 48) w1 = fun j r => cur Bi r j := funext fun j => funext fun r => h1 j r
  have e2 : cur (a := 192) (b := 48) w2 = fun k r => cur Ci r k := funext fun k => funext fun r => h2 k r
  have e3 : cur (a := 2304) (b := 256) w3 = fun p r1 => cur Gi (swap48 p) r1 := funext fun p => funext fun r1 => h3 p r1
  have e4 : cur (a := 256) (b := 2304) w4 = fun r1 p => relu (cur G r1 (swap48 p)) := funext fun r1 => funext fun p => h4 r1 p
  have e5 : cur (a := 48) (b := 192) w5 = fun r k => smax (cur C k) r := funext fun r => funext fun k => h5 r k
  have e6 : cur (a := 48) (b := 192) w6 = fun r j => smax (cur B j) r := funext fun r => funext fun j => h6 r j
  rw [e0, e1, e2, e3, e4, e5, e6]
  rfl

variable (m : (ℓ : Loc nD τ sig) → Buf (Elt Ideal) ℓ) (ρ : Dev nD → PrngReg)

/-- The printed index maps over the 64 points: the data and result windows take block `t` of rows, the six small
    operands their one whole block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The data window's block at point `t` is rows `32 t + p` of `X`. -/
theorem iblk0_apply (c : Dev nD) (t : Fin cfg0.N) (p : Fin 32) (q : Fin 36864) :
    iblk m c 0 t (ix2 p q) = argX m c (ix2 ⟨t.val * 32 + p.val, by have := p.isLt; have ht : t.val < 64 := t.isLt; omega⟩ q) := by
  obtain ⟨e0, e1, -⟩ := idx_facts t
  show V m c main_arg0 (((cfg0.win 0).blk t).view.emb (ix2 p q)) = _
  rw [V_main_arg0]
  refine congrArg (m ((c : Thread nD τ).loc main_arg0)) (funext fun a => Fin.ext ?_)
  match a with
  | ⟨0, _⟩ => show win0_0.index t (0 : Fin 2) * 32 + 1 * p.val = t.val * 32 + p.val; rw [e0]; omega
  | ⟨1, _⟩ => show win0_0.index t (1 : Fin 2) * 36864 + 1 * q.val = q.val; rw [e1]; omega

/-- Each small operand's window holds its one whole block at every point. -/
theorem iblk1_apply (c : Dev nD) (t : Fin cfg0.N) (a : Fin 192) (b : Fin 48) :
    iblk m c 1 t (ix2 a b) = (V m c main_v32 : A2 192 48) (ix2 a b) := by
  obtain ⟨-, -, e0, e1, -⟩ := idx_facts t
  show V m c main_v32 (((cfg0.win 1).blk t).view.emb (ix2 a b)) = _
  refine congrArg (V m c main_v32) (funext fun d => Fin.ext ?_)
  match d with
  | ⟨0, _⟩ => show win0_1.index t (0 : Fin 2) * 192 + 1 * a.val = a.val; rw [e0]; omega
  | ⟨1, _⟩ => show win0_1.index t (1 : Fin 2) * 48 + 1 * b.val = b.val; rw [e1]; omega
theorem iblk2_apply (c : Dev nD) (t : Fin cfg0.N) (a : Fin 192) (b : Fin 48) :
    iblk m c 2 t (ix2 a b) = (V m c main_v34 : A2 192 48) (ix2 a b) := by
  obtain ⟨-, -, -, -, e0, e1, -⟩ := idx_facts t
  show V m c main_v34 (((cfg0.win 2).blk t).view.emb (ix2 a b)) = _
  refine congrArg (V m c main_v34) (funext fun d => Fin.ext ?_)
  match d with
  | ⟨0, _⟩ => show win0_2.index t (0 : Fin 2) * 192 + 1 * a.val = a.val; rw [e0]; omega
  | ⟨1, _⟩ => show win0_2.index t (1 : Fin 2) * 48 + 1 * b.val = b.val; rw [e1]; omega
theorem iblk3_apply (c : Dev nD) (t : Fin cfg0.N) (a : Fin 2304) (b : Fin 256) :
    iblk m c 3 t (ix2 a b) = (V m c main_v3 : A2 2304 256) (ix2 a b) := by
  obtain ⟨-, -, -, -, -, -, e0, e1, -⟩ := idx_facts t
  show V m c main_v3 (((cfg0.win 3).blk t).view.emb (ix2 a b)) = _
  refine congrArg (V m c main_v3) (funext fun d => Fin.ext ?_)
  match d with
  | ⟨0, _⟩ => show win0_3.index t (0 : Fin 2) * 2304 + 1 * a.val = a.val; rw [e0]; omega
  | ⟨1, _⟩ => show win0_3.index t (1 : Fin 2) * 256 + 1 * b.val = b.val; rw [e1]; omega
theorem iblk4_apply (c : Dev nD) (t : Fin cfg0.N) (a : Fin 256) (b : Fin 2304) :
    iblk m c 4 t (ix2 a b) = (V m c main_v8 : A2 256 2304) (ix2 a b) := by
  obtain ⟨-, -, -, -, -, -, -, -, e0, e1, -⟩ := idx_facts t
  show V m c main_v8 (((cfg0.win 4).blk t).view.emb (ix2 a b)) = _
  refine congrArg (V m c main_v8) (funext fun d => Fin.ext ?_)
  match d with
  | ⟨0, _⟩ => show win0_4.index t (0 : Fin 2) * 256 + 1 * a.val = a.val; rw [e0]; omega
  | ⟨1, _⟩ => show win0_4.index t (1 : Fin 2) * 2304 + 1 * b.val = b.val; rw [e1]; omega
theorem iblk5_apply (c : Dev nD) (t : Fin cfg0.N) (a : Fin 48) (b : Fin 192) :
    iblk m c 5 t (ix2 a b) = (V m c main_v36 : A2 48 192) (ix2 a b) := by
  obtain ⟨-, -, -, -, -, -, -, -, -, -, e0, e1, -⟩ := idx_facts t
  show V m c main_v36 (((cfg0.win 5).blk t).view.emb (ix2 a b)) = _
  refine congrArg (V m c main_v36) (funext fun d => Fin.ext ?_)
  match d with
  | ⟨0, _⟩ => show win0_5.index t (0 : Fin 2) * 48 + 1 * a.val = a.val; rw [e0]; omega
  | ⟨1, _⟩ => show win0_5.index t (1 : Fin 2) * 192 + 1 * b.val = b.val; rw [e1]; omega
theorem iblk6_apply (c : Dev nD) (t : Fin cfg0.N) (a : Fin 48) (b : Fin 192) :
    iblk m c 6 t (ix2 a b) = (V m c main_v38 : A2 48 192) (ix2 a b) := by
  obtain ⟨-, -, -, -, -, -, -, -, -, -, -, -, e0, e1, -⟩ := idx_facts t
  show V m c main_v38 (((cfg0.win 6).blk t).view.emb (ix2 a b)) = _
  refine congrArg (V m c main_v38) (funext fun d => Fin.ext ?_)
  match d with
  | ⟨0, _⟩ => show win0_6.index t (0 : Fin 2) * 48 + 1 * a.val = a.val; rw [e0]; omega
  | ⟨1, _⟩ => show win0_6.index t (1 : Fin 2) * 192 + 1 * b.val = b.val; rw [e1]; omega

/-- The seven arguments' result array, the kernel's spelling, on device `c`. -/
abbrev kerOf (c : Dev nD) : A2 2048 36864 :=
  kerArr (argX m c) (argB m c) (argC m c) (argG m c) (argBi m c) (argCi m c) (argGi m c)

/-- What point `t` writes back is block `t` of `kerArr` of the arguments. -/
theorem flushed_eq (c : Dev nD) (t : Fin cfg0.N) :
    (dats m 0 c).flushed 7 t = ((cfg0.win 7).blk t).view.read (Elt Ideal) (kerOf m c) := by
  rw [Cert.KernelIdeal.Value.flushed7]
  unfold out0_7
  rw [View.canon_unit_zero offs_zero]
  simp only [View.ld_unit_zero (S := S32x36864) offs_zero, View.ld_unit_zero (S := S192x48) offs_zero,
    View.ld_unit_zero (S := S2304x256) offs_zero, View.ld_unit_zero (S := S256x2304) offs_zero,
    View.ld_unit_zero (S := S48x192) offs_zero]
  obtain ⟨-, -, -, -, -, -, -, -, -, -, -, -, -, -, e0, e1⟩ := idx_facts t
  funext y
  obtain ⟨p, q, rfl⟩ : ∃ (p : Fin 32) (q : Fin 36864), y = ix2 p q := ⟨y 0, y 1, eq_ix2 y⟩
  have hemb : ((cfg0.win 7).blk t).view.emb (ix2 p q)
      = ix2 (⟨t.val * 32 + p.val, by have := p.isLt; have ht : t.val < 64 := t.isLt; omega⟩ : Fin 2048) q := by
    funext a; apply Fin.ext
    match a with
    | ⟨0, _⟩ => show win0_7.index t (0 : Fin 2) * 32 + 1 * p.val = t.val * 32 + p.val; rw [e0]; omega
    | ⟨1, _⟩ => show win0_7.index t (1 : Fin 2) * 36864 + 1 * q.val = q.val; rw [e1]; omega
  show k0_pay1 (F := Ideal) (k0_pay2 (F := Ideal) (iblk m c 0 t) (iblk m c 1 t) (iblk m c 2 t) (iblk m c 3 t) (iblk m c 4 t) (iblk m c 5 t)) (iblk m c 6 t) (ix2 p q)
    = kerOf m c (((cfg0.win 7).blk t).view.emb (ix2 p q))
  rw [hemb]
  exact block_eq (iblk m c 0 t) (iblk m c 1 t) (iblk m c 2 t) (iblk m c 3 t) (iblk m c 4 t) (iblk m c 5 t) (iblk m c 6 t)
    (argX m c) (argB m c) (argC m c) (argG m c) (argBi m c) (argCi m c) (argGi m c) t.val t.isLt
    (fun p q => iblk0_apply m c t p q)
    (fun j r => (iblk1_apply m c t j r).trans (win1_apply m c j r))
    (fun k r => (iblk2_apply m c t k r).trans (win2_apply m c k r))
    (fun p r1 => (iblk3_apply m c t p r1).trans (win3_apply m c p r1))
    (fun r1 p => (iblk4_apply m c t r1 p).trans (win4_apply m c r1 p))
    (fun r k => (iblk5_apply m c t r k).trans (win5_apply m c r k))
    (fun r j => (iblk6_apply m c t r j).trans (win6_apply m c r j)) p q

/-- An index of the result array is in point `t`'s block iff each coordinate is in the block's range on its axis. -/
theorem mem_blk7 (t : Fin cfg0.N) (i : S2048x36864.Idx) :
    i ∈ ((cfg0.win 7).blk t).view.set ↔ ∀ a : Fin 2, win0_7.index t a * S32x36864.size a ≤ (i a).val ∧ (i a).val < win0_7.index t a * S32x36864.size a + S32x36864.size a := by
  show i ∈ ((View.whole main_v39).slice (win0_7.rect t)).set ↔ _
  rw [View.set_slice_whole, Rect.mem_set_unit]
  exact Iff.rfl

/-- Every index of the result array is in the block of the point that owns its row: point `row / 32`. -/
theorem cover7 (i : S2048x36864.Idx) : ∃ t : Fin cfg0.N, (cfg0.win 7).flush t = true ∧ i ∈ ((cfg0.win 7).blk t).view.set := by
  have hi0 : (i 0).val < 2048 := (i 0).isLt
  have hi1 : (i 1).val < 36864 := (i 1).isLt
  let t : Fin cfg0.N := ⟨(i 0).val / 32, by show (i 0).val / 32 < 64; omega⟩
  obtain ⟨-, -, -, -, -, -, -, -, -, -, -, -, -, -, e0, e1⟩ := idx_facts t
  have ht : t.val = (i 0).val / 32 := rfl
  refine ⟨t, flush0_7 t, ?_⟩
  rw [mem_blk7]
  intro a
  match a with
  | ⟨0, _⟩ => show win0_7.index t (0 : Fin 2) * 32 ≤ (i 0).val ∧ (i 0).val < win0_7.index t (0 : Fin 2) * 32 + 32; rw [e0]; omega
  | ⟨1, _⟩ => show win0_7.index t (1 : Fin 2) * 36864 ≤ (i 1).val ∧ (i 1).val < win0_7.index t (1 : Fin 2) * 36864 + 36864; rw [e1]; omega

/-- The result array after the run is `kerArr` of the seven arguments. -/
theorem final7 (c : Dev nD) : (dats m 0 c).arrAt 7 cfg0.N = kerOf m c :=
  (dats m 0 c).arrAt_eq_of_cover 7 (kerOf m c) (fun t _ => flushed_eq m c t) cover7

/-- The kernel program's run: the result array ends at `kerArr` of the arguments, the arguments unchanged. -/
theorem kernel_run : θ_run defs (onTc (τ := τ) (main (F := Ideal))) ⟨m, fun _ => 0, ρ⟩ fun r => ∀ c : Dev nD,
      r.2.mem ((c : Thread nD τ).loc main_v39) = kerOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2⟩)
    (Cert.KernelIdeal.Value.run_blocks m ρ)

end Cert.Tucker

end
-- ==== Proof.Reference.lean ====
/-
  The reference program's result, as one function of its seven argument arrays.

  The reference is read one operation at a time, each at an index built from literal coordinates:
  the three row-softmaxes (of `C`, of `B`, of the code), the two Kronecker matrices (each a product of two
  broadcasts reshaped to a matrix, so that its entry at a flattened position is the product of the two factors at
  the position's quotient and remainder), the two contractions that make the code, `relu G`, and the two
  contractions that make the result.
-/
import proofs.«139005_j67740224193011_1_alg».proof.Proof.Gen.ReferenceIdeal.Read
import proofs.«139005_j67740224193011_1_alg».proof.Proof.SpecArr
import Idealize.ShloMosaic.Lib.ValueIdx
import Idealize.ShloMosaic.Lib.Pipeline.Value
import Idealize.ShloMosaic.PureOps.Ideal.Laws
import Idealize.ShloMosaic.PureOps.Reduce

noncomputable section

namespace Cert.Tucker

open Cert.ReferenceIdeal Cert.ReferenceIdeal.Gen Cert.ReferenceIdeal.Read Idealize.ShloMosaic Idealize.ShloMosaic.ValueIdx

/-! ### A row put back under a reduced index -/

/-- The reduced index `k` of a matrix reduced along its rows, with column `r` put back, is `(k, r)`. -/
theorem lift_row {m n : Nat} (h : (⟨2, ![m, n]⟩ : Shape).Reduces [1] (⟨1, ![m]⟩ : Shape)) (k : Fin m)
    (r : Fin ((⟨2, ![m, n]⟩ : Shape).size 1)) : h.lift (ix1 k) r = ix2 k (⟨r.val, r.isLt⟩ : Fin n) := by
  funext c; apply Fin.ext
  fin_cases c <;> rfl

/-! ### The row-softmax of `C` (argument 2) -/

/-- The row maximum: the fold of `max` from `-∞` over row `k`, then once more against `-∞`. -/
theorem ref_maxC (x2 : (⟨S192x48, .f32⟩ : BufTy).Contents (Elt Ideal)) (k : Fin 192) :
    val_main_v8 (F := Ideal) x2 (ix1 k) = rowMax (cur x2 k) := by
  rw [val_main_v8_apply, val_main_v7_apply, val_main_cst_0_apply]
  unfold val_main_v6
  have hR : S192x48.Reduces [1] S192 := by decide
  have e := Host.reduce_eq_fold_single (FloatOps.maximumf (F := Ideal) (φ := .f32)) x2 (val_main_cst (F := Ideal))
    reducesTo_S192x48_S192_d1 hR h_S_ (ix1 k)
  rw [e]
  have hf : (x2 ∘ hR.lift (ix1 k)) = cur x2 k := funext fun r => congrArg x2 (lift_row hR k r)
  rw [hf]
  rfl

/-- The exponential of an entry less its row's maximum. -/
theorem ref_expC (x2 : (⟨S192x48, .f32⟩ : BufTy).Contents (Elt Ideal)) (k : Fin 192) (r : Fin 48) :
    val_main_v12 (F := Ideal) x2 (ix2 k r) = Ideal.exp (cur x2 k r - rowMax (cur x2 k)) := by
  rw [val_main_v12_apply, val_main_v11_apply, val_main_v10_apply, val_main_v9_apply]
  have hi : idx_main_v9 (idx_main_v10 (ix2 k r)) = ix1 k := funext fun a => Fin.ext (by match a with | ⟨0, _⟩ => rfl)
  rw [hi, ref_maxC]
  rfl

/-- Entry `(k, r)` of the softmax of `C` is the softmax of row `k` at `r`. -/
theorem ref_smC (x2 : (⟨S192x48, .f32⟩ : BufTy).Contents (Elt Ideal)) (k : Fin 192) (r : Fin 48) :
    val_main_v16 (F := Ideal) x2 (ix2 k r) = smax (cur x2 k) r := by
  rw [val_main_v16_apply, val_main_v15_apply, val_main_v14_apply, val_main_v13_apply, val_main_cst_1_apply, ref_expC]
  have hs : ∀ j : Fin 48, idx_main_v13 (idx_main_v14 (idx_main_v15 (ix2 k r))) j = ix2 k j := fun j =>
    funext fun a => Fin.ext (by match a with | ⟨0, _⟩ => rfl | ⟨1, _⟩ => rfl)
  simp only [hs, ref_expC]
  unfold smax
  rw [show (FloatOps.ofBits .f32 0x00000000#32 : Ideal .f32) = 0 from Ideal.ofBits_zero_f32, zero_add]
  rfl

/-! ### The row-softmax of `B` (argument 1) -/

/-- The row maximum of `B`. -/
theorem ref_maxB (x1 : (⟨S192x48, .f32⟩ : BufTy).Contents (Elt Ideal)) (j : Fin 192) :
    val_main_v19 (F := Ideal) x1 (ix1 j) = rowMax (cur x1 j) := by
  rw [val_main_v19_apply, val_main_v18_apply, val_main_cst_3_apply]
  unfold val_main_v17
  have hR : S192x48.Reduces [1] S192 := by decide
  have e := Host.reduce_eq_fold_single (FloatOps.maximumf (F := Ideal) (φ := .f32)) x1 (val_main_cst_2 (F := Ideal))
    reducesTo_S192x48_S192_d1 hR h_S_ (ix1 j)
  rw [e]
  have hf : (x1 ∘ hR.lift (ix1 j)) = cur x1 j := funext fun r => congrArg x1 (lift_row hR j r)
  rw [hf]
  rfl

/-- The exponential of an entry of `B` less its row's maximum. -/
theorem ref_expB (x1 : (⟨S192x48, .f32⟩ : BufTy).Contents (Elt Ideal)) (j : Fin 192) (r : Fin 48) :
    val_main_v23 (F := Ideal) x1 (ix2 j r) = Ideal.exp (cur x1 j r - rowMax (cur x1 j)) := by
  rw [val_main_v23_apply, val_main_v22_apply, val_main_v21_apply, val_main_v20_apply]
  have hi : idx_main_v20 (idx_main_v21 (ix2 j r)) = ix1 j := funext fun a => Fin.ext (by match a with | ⟨0, _⟩ => rfl)
  rw [hi, ref_maxB]
  rfl

/-- Entry `(j, r)` of the softmax of `B` is the softmax of row `j` at `r`. -/
theorem ref_smB (x1 : (⟨S192x48, .f32⟩ : BufTy).Contents (Elt Ideal)) (j : Fin 192) (r : Fin 48) :
    val_main_v27 (F := Ideal) x1 (ix2 j r) = smax (cur x1 j) r := by
  rw [val_main_v27_apply, val_main_v26_apply, val_main_v25_apply, val_main_v24_apply, val_main_cst_4_apply, ref_expB]
  have hs : ∀ t : Fin 48, idx_main_v24 (idx_main_v25 (idx_main_v26 (ix2 j r))) t = ix2 j t := fun t =>
    funext fun a => Fin.ext (by match a with | ⟨0, _⟩ => rfl | ⟨1, _⟩ => rfl)
  simp only [hs, ref_expB]
  unfold smax
  rw [show (FloatOps.ofBits .f32 0x00000000#32 : Ideal .f32) = 0 from Ideal.ofBits_zero_f32, zero_add]
  rfl

/-! ### The Kronecker matrix of the two inverse factors, and the code -/

/-- Entry `(p, q)` of `kron(C_inv, B_inv)`: the factors at the quotients and at the remainders of the two positions. -/
theorem ref_kronI (x4 x5 : (⟨S48x192, .f32⟩ : BufTy).Contents (Elt Ideal)) (p : Fin 2304) (q : Fin 36864) :
    val_main_v0 (F := Ideal) x4 x5 (ix2 p q) = cur x5 (hi48 p) (hi192 q) * cur x4 (lo48 p) (lo192 q) := by
  rw [val_main_v0_apply, val_main_call0_v4_apply, val_main_call0_v2_apply, val_main_call0_v0_apply,
    val_main_call0_v3_apply, val_main_call0_v1_apply]
  have hp := p.isLt
  have hq := q.isLt
  have h5 : idx_main_call0_v0 (idx_main_call0_v2 (idx_main_v0 (ix2 p q))) = ix2 (hi48 p) (hi192 q) :=
    funext fun a => Fin.ext (by
      match a with
      | ⟨0, _⟩ => show (p.val * 36864 + q.val) / 1769472 = p.val / 48; omega
      | ⟨1, _⟩ => show (p.val * 36864 + q.val) / 192 % 192 = q.val / 192; omega)
  have h4 : idx_main_call0_v1 (idx_main_call0_v3 (idx_main_v0 (ix2 p q))) = ix2 (lo48 p) (lo192 q) :=
    funext fun a => Fin.ext (by
      match a with
      | ⟨0, _⟩ => show (p.val * 36864 + q.val) / 36864 % 48 = p.val % 48; omega
      | ⟨1, _⟩ => show (p.val * 36864 + q.val) % 192 = q.val % 192; omega)
  rw [h5, h4]
  rfl

/-- Entry `(n, r1)` of the code: `G_invᵀ · (kron(C_inv, B_inv) · xₙ)` at `r1`, for row `n` of the data. -/
theorem ref_code (x0 : (⟨S2048x36864, .f32⟩ : BufTy).Contents (Elt Ideal)) (x4 x5 : (⟨S48x192, .f32⟩ : BufTy).Contents (Elt Ideal))
    (x6 : (⟨S2304x256, .f32⟩ : BufTy).Contents (Elt Ideal)) (n : Fin 2048) (r1 : Fin 256) :
    val_main_v5 (F := Ideal) x0 x4 x5 x6 (ix2 n r1) = encR (cur x0 n) (cur x4) (cur x5) (cur x6) r1 := by
  rw [val_main_v5_apply, val_main_v4_apply]
  unfold encR
  refine Finset.sum_congr rfl fun p _ => ?_
  rw [val_main_v1_apply, val_main_v3_apply]
  have h1 : idx_main_v1 (lidx_main_v4 (idx_main_v5 (ix2 n r1)) p) = ix2 p r1 :=
    funext fun a => Fin.ext (by match a with | ⟨0, _⟩ => rfl | ⟨1, _⟩ => rfl)
  rw [h1]
  refine congrArg (cur x6 p r1 * ·) (Finset.sum_congr rfl fun q _ => ?_)
  rw [val_main_v2_apply]
  have h0 : lidx_main_v3 (ridx_main_v4 (idx_main_v5 (ix2 n r1)) p) q = ix2 p q :=
    funext fun a => Fin.ext (by match a with | ⟨0, _⟩ => rfl | ⟨1, _⟩ => rfl)
  have h2 : idx_main_v2 (ridx_main_v3 (ridx_main_v4 (idx_main_v5 (ix2 n r1)) p) q) = ix2 n q :=
    funext fun a => Fin.ext (by match a with | ⟨0, _⟩ => rfl | ⟨1, _⟩ => rfl)
  rw [h0, h2, ref_kronI]
  rfl

/-! ### The row-softmax of the code -/

/-- The row maximum of the code. -/
theorem ref_maxA (x0 : (⟨S2048x36864, .f32⟩ : BufTy).Contents (Elt Ideal)) (x4 x5 : (⟨S48x192, .f32⟩ : BufTy).Contents (Elt Ideal))
    (x6 : (⟨S2304x256, .f32⟩ : BufTy).Contents (Elt Ideal)) (n : Fin 2048) :
    val_main_v31 (F := Ideal) x0 x4 x5 x6 (ix1 n) = rowMax (encR (cur x0 n) (cur x4) (cur x5) (cur x6)) := by
  rw [val_main_v31_apply, val_main_v30_apply, val_main_cst_6_apply]
  unfold val_main_v29
  have hR : S2048x256.Reduces [1] S2048 := by decide
  have e := Host.reduce_eq_fold_single (FloatOps.maximumf (F := Ideal) (φ := .f32)) (val_main_v5 (F := Ideal) x0 x4 x5 x6)
    (val_main_cst_5 (F := Ideal)) reducesTo_S2048x256_S2048_d1 hR h_S_ (ix1 n)
  rw [e]
  have hf : (val_main_v5 (F := Ideal) x0 x4 x5 x6 ∘ hR.lift (ix1 n)) = encR (cur x0 n) (cur x4) (cur x5) (cur x6) :=
    funext fun r => (congrArg (val_main_v5 (F := Ideal) x0 x4 x5 x6) (lift_row hR n r)).trans (ref_code x0 x4 x5 x6 n _)
  rw [hf]
  rfl

/-- The exponential of an entry of the code less its row's maximum. -/
theorem ref_expA (x0 : (⟨S2048x36864, .f32⟩ : BufTy).Contents (Elt Ideal)) (x4 x5 : (⟨S48x192, .f32⟩ : BufTy).Contents (Elt Ideal))
    (x6 : (⟨S2304x256, .f32⟩ : BufTy).Contents (Elt Ideal)) (n : Fin 2048) (r1 : Fin 256) :
    val_main_v35 (F := Ideal) x0 x4 x5 x6 (ix2 n r1)
      = Ideal.exp (encR (cur x0 n) (cur x4) (cur x5) (cur x6) r1 - rowMax (encR (cur x0 n) (cur x4) (cur x5) (cur x6))) := by
  rw [val_main_v35_apply, val_main_v34_apply, val_main_v33_apply, val_main_v32_apply]
  have hi : idx_main_v32 (idx_main_v33 (ix2 n r1)) = ix1 n := funext fun a => Fin.ext (by match a with | ⟨0, _⟩ => rfl)
  rw [hi, ref_maxA, ref_code]
  rfl

/-- Entry `(n, r1)` of the softmax of the code is the softmax of row `n`'s code at `r1`. -/
theorem ref_smA (x0 : (⟨S2048x36864, .f32⟩ : BufTy).Contents (Elt Ideal)) (x4 x5 : (⟨S48x192, .f32⟩ : BufTy).Contents (Elt Ideal))
    (x6 : (⟨S2304x256, .f32⟩ : BufTy).Contents (Elt Ideal)) (n : Fin 2048) (r1 : Fin 256) :
    val_main_v39 (F := Ideal) x0 x4 x5 x6 (ix2 n r1) = smax (encR (cur x0 n) (cur x4) (cur x5) (cur x6)) r1 := by
  rw [val_main_v39_apply, val_main_v38_apply, val_main_v37_apply, val_main_v36_apply, val_main_cst_7_apply, ref_expA]
  have hs : ∀ t : Fin 256, idx_main_v36 (idx_main_v37 (idx_main_v38 (ix2 n r1))) t = ix2 n t := fun t =>
    funext fun a => Fin.ext (by match a with | ⟨0, _⟩ => rfl | ⟨1, _⟩ => rfl)
  simp only [hs, ref_expA]
  unfold smax
  rw [show (FloatOps.ofBits .f32 0x00000000#32 : Ideal .f32) = 0 from Ideal.ofBits_zero_f32, zero_add]
  rfl

/-! ### `relu G` and the Kronecker matrix of the two softmaxes -/

/-- Entry `(r1, p)` of `relu G`. -/
theorem ref_relu (x3 : (⟨S256x2304, .f32⟩ : BufTy).Contents (Elt Ideal)) (r1 : Fin 256) (p : Fin 2304) :
    val_main_v40 (F := Ideal) x3 (ix2 r1 p) = relu (cur x3 r1 p) := by
  rw [val_main_v40_apply, val_main_call2_v0_apply, val_main_call2_cst_apply]
  unfold relu
  rw [show (FloatOps.ofBits .f32 0x00000000#32 : Ideal .f32) = 0 from Ideal.ofBits_zero_f32]
  rfl

/-- Entry `(p, q)` of `kron(sm C, sm B)ᵀ`: the two softmaxes at the quotients and at the remainders of the two positions. -/
theorem ref_kronS (x1 x2 : (⟨S192x48, .f32⟩ : BufTy).Contents (Elt Ideal)) (p : Fin 2304) (q : Fin 36864) :
    val_main_v42 (F := Ideal) x1 x2 (ix2 p q)
      = smax (cur x2 (hi192 q)) (hi48 p) * smax (cur x1 (lo192 q)) (lo48 p) := by
  rw [val_main_v42_apply, val_main_v28_apply, val_main_call1_v4_apply, val_main_call1_v2_apply, val_main_call1_v0_apply,
    val_main_call1_v3_apply, val_main_call1_v1_apply]
  have hp := p.isLt
  have hq := q.isLt
  have h2 : idx_main_call1_v0 (idx_main_call1_v2 (idx_main_v28 (idx_main_v42 (ix2 p q)))) = ix2 (hi192 q) (hi48 p) :=
    funext fun a => Fin.ext (by
      match a with
      | ⟨0, _⟩ => show (q.val * 2304 + p.val) / 442368 = q.val / 192; omega
      | ⟨1, _⟩ => show (q.val * 2304 + p.val) / 48 % 48 = p.val / 48; omega)
  have h1 : idx_main_call1_v1 (idx_main_call1_v3 (idx_main_v28 (idx_main_v42 (ix2 p q)))) = ix2 (lo192 q) (lo48 p) :=
    funext fun a => Fin.ext (by
      match a with
      | ⟨0, _⟩ => show (q.val * 2304 + p.val) / 2304 % 192 = q.val % 192; omega
      | ⟨1, _⟩ => show (q.val * 2304 + p.val) % 48 = p.val % 48; omega)
  rw [h2, h1, ref_smC, ref_smB]
  rfl

/-! ### The result -/

/-- The last operation's value is the reference's spelling `specArr` of the seven arguments. -/
theorem ref_eq (x0 : (⟨S2048x36864, .f32⟩ : BufTy).Contents (Elt Ideal)) (x1 x2 : (⟨S192x48, .f32⟩ : BufTy).Contents (Elt Ideal))
    (x3 : (⟨S256x2304, .f32⟩ : BufTy).Contents (Elt Ideal)) (x4 x5 : (⟨S48x192, .f32⟩ : BufTy).Contents (Elt Ideal))
    (x6 : (⟨S2304x256, .f32⟩ : BufTy).Contents (Elt Ideal)) :
    Cert.ReferenceIdeal.Read.val_main_v43 (F := Ideal) x0 x1 x2 x3 x4 x5 x6 = specArr x0 x1 x2 x3 x4 x5 x6 := by
  funext i
  obtain ⟨n, q, rfl⟩ : ∃ (n : Fin 2048) (q : Fin 36864), i = ix2 n q := ⟨i 0, i 1, eq_ix2 i⟩
  show _ = outR (cur x0 n) (cur x1) (cur x2) (cur x3) (cur x4) (cur x5) (cur x6) q
  rw [val_main_v43_apply]
  unfold outR
  refine Finset.sum_congr rfl fun p _ => ?_
  rw [val_main_v41_apply]
  have hr : ridx_main_v43 (ix2 n q) p = ix2 p q :=
    funext fun a => Fin.ext (by match a with | ⟨0, _⟩ => rfl | ⟨1, _⟩ => rfl)
  have hl : ∀ r1 : Fin 256, lidx_main_v41 (lidx_main_v43 (ix2 n q) p) r1 = ix2 n r1 := fun r1 =>
    funext fun a => Fin.ext (by match a with | ⟨0, _⟩ => rfl | ⟨1, _⟩ => rfl)
  have hg : ∀ r1 : Fin 256, ridx_main_v41 (lidx_main_v43 (ix2 n q) p) r1 = ix2 r1 p := fun r1 =>
    funext fun a => Fin.ext (by match a with | ⟨0, _⟩ => rfl | ⟨1, _⟩ => rfl)
  rw [hr, ref_kronS]
  simp only [hl, hg, ref_smA, ref_relu]

end Cert.Tucker

end
-- ==== Proof.Algebra.lean ====
/-
  Over finite reals the kernel's spelling of a row of the result and the reference's are one number.

  Every quantity in the two formulas is a finite sum of products of real numbers, a softmax of a real row, or a
  relu of a real number, so both sides are the image of a real number in the extended reals.  The proof pushes the
  inclusion of the reals outward and is left with two identities between finite real sums, both instances of
  distributivity and of the bijection between a pair (a, b) and the position a * n + b of a flattened n × n axis.
-/
import proofs.«139005_j67740224193011_1_alg».proof.Proof.Spec
import Mathlib.Data.EReal.Operations
import Mathlib.Data.Finset.Fold
import Mathlib.Data.Fintype.BigOperators
import Mathlib.Algebra.BigOperators.Ring.Finset
import Mathlib.Algebra.BigOperators.Group.Finset.Sigma
import Mathlib.Algebra.Order.BigOperators.Group.Finset
import Mathlib.Analysis.Complex.Exponential

noncomputable section

namespace Cert.Tucker

open Idealize.ShloMosaic

/-! ### Real numbers inside the extended reals -/

/-- The inclusion of the reals commutes with finite sums. -/
theorem coe_sum {ι : Type*} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- The inclusion of the reals commutes with the maximum of two numbers (it is monotone). -/
theorem coe_max (a b : ℝ) : max (a : EReal) (b : EReal) = ((max a b : ℝ) : EReal) :=
  (EReal.coe_strictMono.monotone.map_max).symm

/-- The pattern of negative infinity denotes the least extended real. -/
theorem negInf_eq : negInf = ⊥ := by
  simp [negInf, Ideal.ofBits, Ideal.ieee]

/-- A fold of the maximum from the least element over a nonempty family of reals is a real (the largest of them). -/
theorem fold_max_coe {ι : Type*} (s : Finset ι) (hs : s.Nonempty) (a : ι → ℝ) :
    ∃ m : ℝ, s.fold max (⊥ : EReal) (fun i => (a i : EReal)) = (m : EReal) := by
  induction hs using Finset.Nonempty.cons_induction with
  | singleton i => exact ⟨a i, by rw [Finset.fold_singleton, max_bot_right]⟩
  | cons i s hi hs ih =>
    obtain ⟨m, hm⟩ := ih
    exact ⟨max (a i) m, by rw [Finset.fold_cons, hm, coe_max]⟩

/-- The maximum of a nonempty real row is real. -/
theorem rowMax_coe {n : ℕ} (hn : 0 < n) (a : Fin n → ℝ) :
    ∃ m : ℝ, rowMax (fun i => (a i : EReal)) = (m : EReal) := by
  haveI : Nonempty (Fin n) := ⟨⟨0, hn⟩⟩
  obtain ⟨m, hm⟩ := fold_max_coe Finset.univ Finset.univ_nonempty a
  exact ⟨m, by rw [rowMax, negInf_eq, hm, max_eq_right bot_le]⟩

/-- The softmax of a nonempty real row is a real row: the exponentials are real, and their sum is a positive
    real, so the quotient is the real quotient. -/
theorem smax_coe {n : ℕ} (hn : 0 < n) (a : Fin n → ℝ) :
    ∃ s : Fin n → ℝ, ∀ i, smax (fun i => (a i : EReal)) i = (s i : EReal) := by
  obtain ⟨m, hm⟩ := rowMax_coe hn a
  have hpos : (0 : ℝ) < ∑ j : Fin n, Real.exp (a j - m) := by
    haveI : Nonempty (Fin n) := ⟨⟨0, hn⟩⟩
    exact Finset.sum_pos (fun j _ => Real.exp_pos _) Finset.univ_nonempty
  refine ⟨fun i => Real.exp (a i - m) * (1 / ∑ j : Fin n, Real.exp (a j - m)), fun i => ?_⟩
  simp only [smax, hm, ← EReal.coe_sub, Ideal.exp_coe, ← coe_sum]
  rw [Ideal.div_coe hpos.ne', ← EReal.coe_mul]

/-- The relu of a real is the real maximum with zero. -/
theorem relu_coe (r : ℝ) : relu (r : EReal) = ((max r 0 : ℝ) : EReal) := by
  rw [relu, ← EReal.coe_zero, coe_max]

/-! ### Positions of the flattened axes and pairs of coordinates -/

theorem hi48_pr (a b : Fin 48) : hi48 (pr a b) = a := by
  have := a.isLt; have := b.isLt
  apply Fin.ext; simp only [hi48, pr]; omega

theorem lo48_pr (a b : Fin 48) : lo48 (pr a b) = b := by
  have := a.isLt; have := b.isLt
  apply Fin.ext; simp only [lo48, pr]; omega

theorem pr_hi48_lo48 (p : Fin 2304) : pr (hi48 p) (lo48 p) = p := by
  have := p.isLt
  apply Fin.ext; simp only [hi48, lo48, pr]; omega

theorem swap48_pr (a b : Fin 48) : swap48 (pr a b) = pr b a := by
  rw [swap48, hi48_pr, lo48_pr]

theorem hi192_kj (k j : Fin 192) : hi192 (kj k j) = k := by
  have := k.isLt; have := j.isLt
  apply Fin.ext; simp only [hi192, kj]; omega

theorem lo192_kj (k j : Fin 192) : lo192 (kj k j) = j := by
  have := k.isLt; have := j.isLt
  apply Fin.ext; simp only [lo192, kj]; omega

theorem kj_hi192_lo192 (q : Fin 36864) : kj (hi192 q) (lo192 q) = q := by
  have := q.isLt
  apply Fin.ext; simp only [hi192, lo192, kj]; omega

/-- Pairs of coordinates and positions of the flattened 48 × 48 axis correspond one to one. -/
def prEquiv : Fin 48 × Fin 48 ≃ Fin 2304 where
  toFun ab := pr ab.1 ab.2
  invFun p := (hi48 p, lo48 p)
  left_inv ab := by simp only [hi48_pr, lo48_pr]
  right_inv p := pr_hi48_lo48 p

/-- Pairs of coordinates and positions of the flattened 192 × 192 axis correspond one to one. -/
def kjEquiv : Fin 192 × Fin 192 ≃ Fin 36864 where
  toFun ab := kj ab.1 ab.2
  invFun q := (hi192 q, lo192 q)
  left_inv ab := by simp only [hi192_kj, lo192_kj]
  right_inv q := kj_hi192_lo192 q

/-- A sum over the flattened 48 × 48 axis is the double sum over its two coordinates. -/
theorem sum_pr (f : Fin 2304 → ℝ) : ∑ p, f p = ∑ a, ∑ b, f (pr a b) := by
  rw [← Fintype.sum_prod_type' (fun a b => f (pr a b))]
  exact (Equiv.sum_comp prEquiv f).symm

/-- A sum over the flattened 192 × 192 axis is the double sum over its two coordinates. -/
theorem sum_kj (f : Fin 36864 → ℝ) : ∑ q, f q = ∑ k, ∑ j, f (kj k j) := by
  rw [← Fintype.sum_prod_type' (fun k j => f (kj k j))]
  exact (Equiv.sum_comp kjEquiv f).symm

/-! ### The code of a row -/

/-- The two spellings of the code, over the reals: on both sides the sum over all (r3, r2, k, j) of
    Gi[r3 · 48 + r2, r1] · Ci[r3, k] · Bi[r2, j] · x[k · 192 + j]. -/
theorem enc_real (x : Fin 36864 → ℝ) (bi ci : Fin 48 → Fin 192 → ℝ) (gi : Fin 2304 → Fin 256 → ℝ) (r1 : Fin 256) :
    ∑ p : Fin 2304, (∑ k : Fin 192, (∑ j : Fin 192, x (kj k j) * bi (hi48 p) j) * ci (lo48 p) k) * gi (swap48 p) r1
      = ∑ p : Fin 2304, gi p r1 * ∑ q : Fin 36864, (ci (hi48 p) (hi192 q) * bi (lo48 p) (lo192 q)) * x q := by
  rw [sum_pr, sum_pr (fun p => gi p r1 * ∑ q : Fin 36864, (ci (hi48 p) (hi192 q) * bi (lo48 p) (lo192 q)) * x q),
    Finset.sum_comm]
  refine Finset.sum_congr rfl fun b _ => Finset.sum_congr rfl fun a _ => ?_
  rw [sum_kj]
  simp only [hi48_pr, lo48_pr, swap48_pr, hi192_kj, lo192_kj, Finset.sum_mul, Finset.mul_sum]
  refine Finset.sum_congr rfl fun k _ => Finset.sum_congr rfl fun j _ => ?_
  ring

/-- The reference's code of a real row is a real row. -/
theorem encR_coe (x : Fin 36864 → ℝ) (bi ci : Fin 48 → Fin 192 → ℝ) (gi : Fin 2304 → Fin 256 → ℝ) :
    ∃ e : Fin 256 → ℝ, encR (fun q => (x q : EReal)) (fun r j => (bi r j : EReal)) (fun r k => (ci r k : EReal))
      (fun p r1 => (gi p r1 : EReal)) = fun r1 => (e r1 : EReal) :=
  ⟨fun r1 => ∑ p : Fin 2304, gi p r1 * ∑ q : Fin 36864, (ci (hi48 p) (hi192 q) * bi (lo48 p) (lo192 q)) * x q, by
    funext r1; simp only [encR, coe_sum, EReal.coe_mul]⟩

/-- The kernel's code of a real row, from the transposed factors and the re-laid core, is the reference's. -/
theorem encK_eq_encR (x : Fin 36864 → ℝ) (bi ci : Fin 48 → Fin 192 → ℝ) (gi : Fin 2304 → Fin 256 → ℝ) :
    encK (fun q => (x q : EReal)) (fun j r => (bi r j : EReal)) (fun k r => (ci r k : EReal))
        (fun p r1 => (gi (swap48 p) r1 : EReal))
      = encR (fun q => (x q : EReal)) (fun r j => (bi r j : EReal)) (fun r k => (ci r k : EReal))
        (fun p r1 => (gi p r1 : EReal)) := by
  funext r1
  simp only [encK, encR, ← EReal.coe_mul, ← coe_sum]
  exact congrArg _ (enc_real x bi ci gi r1)

/-! ### The decoding -/

/-- The two spellings of the decoding, over the reals: on both sides the sum over all (r3, r2, r1) of
    s[r1] · R[r1, r3 · 48 + r2] · u[r3] · v[r2]. -/
theorem dec_real (s : Fin 256 → ℝ) (rg : Fin 256 → Fin 2304 → ℝ) (u v : Fin 48 → ℝ) :
    ∑ r2 : Fin 48, (∑ r3 : Fin 48, (∑ r1 : Fin 256, s r1 * rg r1 (swap48 (pr r2 r3))) * u r3) * v r2
      = ∑ p : Fin 2304, (∑ r1 : Fin 256, s r1 * rg r1 p) * (u (hi48 p) * v (lo48 p)) := by
  rw [sum_pr, Finset.sum_comm]
  refine Finset.sum_congr rfl fun r2 _ => ?_
  rw [Finset.sum_mul]
  refine Finset.sum_congr rfl fun r3 _ => ?_
  rw [swap48_pr, hi48_pr, lo48_pr, mul_assoc]

/-- The same identity between the images of those reals in the extended reals. -/
theorem dec_coe (s : Fin 256 → ℝ) (rg : Fin 256 → Fin 2304 → ℝ) (u v : Fin 48 → ℝ) :
    ∑ r2 : Fin 48, (∑ r3 : Fin 48, (∑ r1 : Fin 256, (s r1 : EReal) * (rg r1 (swap48 (pr r2 r3)) : EReal))
        * (u r3 : EReal)) * (v r2 : EReal)
      = ∑ p : Fin 2304, (∑ r1 : Fin 256, (s r1 : EReal) * (rg r1 p : EReal))
        * ((u (hi48 p) : EReal) * (v (lo48 p) : EReal)) := by
  simp only [← EReal.coe_mul, ← coe_sum]
  exact congrArg _ (dec_real s rg u v)

/-! ### The two spellings of a row of the result -/

/-- The two spellings agree when every argument entry is a real number. -/
theorem outKofArgs_eq_outR (x : Fin 36864 → EReal) (b c : Fin 192 → Fin 48 → EReal) (g : Fin 256 → Fin 2304 → EReal)
    (bi ci : Fin 48 → Fin 192 → EReal) (gi : Fin 2304 → Fin 256 → EReal)
    (hx : Real1 x) (hb : Real2 b) (hc : Real2 c) (hg : Real2 g) (hbi : Real2 bi) (hci : Real2 ci) (hgi : Real2 gi)
    (q : Fin 36864) : outKofArgs x b c g bi ci gi q = outR x b c g bi ci gi q := by
  -- name the real entries
  choose xr hxr using hx
  choose br hbr using hb
  choose cr hcr using hc
  choose gr hgr using hg
  choose bir hbir using hbi
  choose cir hcir using hci
  choose gir hgir using hgi
  obtain rfl : x = fun q => (xr q : EReal) := funext hxr
  obtain rfl : b = fun j r => (br j r : EReal) := funext fun j => funext (hbr j)
  obtain rfl : c = fun k r => (cr k r : EReal) := funext fun k => funext (hcr k)
  obtain rfl : g = fun r1 p => (gr r1 p : EReal) := funext fun r1 => funext (hgr r1)
  obtain rfl : bi = fun r j => (bir r j : EReal) := funext fun r => funext (hbir r)
  obtain rfl : ci = fun r k => (cir r k : EReal) := funext fun r => funext (hcir r)
  obtain rfl : gi = fun p r1 => (gir p r1 : EReal) := funext fun p => funext (hgir p)
  -- the codes agree, and the code is a real row; so its softmax is a real row
  obtain ⟨e, he⟩ := encR_coe xr bir cir gir
  obtain ⟨s, hs⟩ := smax_coe (by norm_num : 0 < 256) e
  -- the row softmaxes of the two factors are real rows
  have hsc : ∀ k, ∃ t : Fin 48 → ℝ, ∀ r, smax (fun r => (cr k r : EReal)) r = (t r : EReal) :=
    fun k => smax_coe (by norm_num) (cr k)
  have hsb : ∀ j, ∃ t : Fin 48 → ℝ, ∀ r, smax (fun r => (br j r : EReal)) r = (t r : EReal) :=
    fun j => smax_coe (by norm_num) (br j)
  choose sc hsc using hsc
  choose sb hsb using hsb
  simp only [outKofArgs, outK, outR, encK_eq_encR, he, hs, hsc, hsb, relu_coe]
  exact dec_coe s (fun r1 p => max (gr r1 p) 0) (sc (hi192 q)) (sb (lo192 q))

end Cert.Tucker

end
-- ==== Proof.Finite.lean ====
/-
  Under the precondition every entry of every argument array is a real number.
-/
import proofs.«139005_j67740224193011_1_alg».proof.Defs
import proofs.«139005_j67740224193011_1_alg».proof.Proof.KArgs
import Idealize.ShloMosaic.Lib.ValueIdx
import Idealize.ShloMosaic.Lib.ReduceAll
import Mathlib.Data.EReal.Basic

noncomputable section

namespace Cert.Tucker

open Cert.KernelIdeal Idealize.ShloMosaic Idealize.ShloMosaic.TcCoe Idealize.SL.Sem

/-- The single-precision pattern `0x7F800000` (sign 0, exponent all ones, fraction 0) denotes `+∞`. -/
theorem posInf_pattern : Ideal.ofBits .f32 0x7F800000#32 = (⊤ : EReal) := by
  simp [Ideal.ofBits, Ideal.ieee]

/-- An extended real whose absolute value `max x (-x)` lies strictly below `+∞` is neither infinity: it is a real. -/
theorem real_of_abs_lt_top (x : EReal) (h : max x (-x) < ⊤) : ∃ r : ℝ, x = (r : EReal) := by
  induction x using EReal.rec with
  | bot => simp at h
  | coe r => exact ⟨r, rfl⟩
  | top => simp at h

/-- The printed element test `|x| < +∞`, as a one-bit word, is 1 only at a real `x`. -/
theorem real_of_test (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  apply real_of_abs_lt_top
  have h' : BitVec.ofBool (decide (max x (-x) < Ideal.ofBits .f32 0x7F800000#32)) = 1#1 := h
  rw [posInf_pattern] at h'
  by_contra hn
  simp [hn] at h'

/-- A rank-0 array has one index. -/
instance subsingleton_scalarIdx : Subsingleton Cert.Pre_finite_inputs.S_.Idx := ⟨fun a b => funext fun d => d.elim0⟩

/-- The printed all-finite test of an `a × b` array (compare `|x|` with `+∞` entry by entry, then the conjunction over
    both axes) is 1 only when every entry of the array is real. -/
theorem realArr_of_all {a b : ℕ} (x : A2 a b)
    (hb : Cert.Pre_finite_inputs.S_.BroadcastsInDim (⟨2, ![a, b]⟩ : Shape) (![] : Fin 0 → Fin 2))
    (hr : (⟨2, ![a, b]⟩ : Shape).ReducesTo [0, 1] Cert.Pre_finite_inputs.S_)
    (hu : 0 < Cert.Pre_finite_inputs.S_.numel)
    (h : Host.reduce IntOp.andi
        (cmpf (F := Ideal) .olt (Host.absf (F := Ideal) (φ := .f32) x)
          (broadcastInDim (⟨2, ![a, b]⟩ : Shape) ![] hb (constant (F := Ideal) Cert.Pre_finite_inputs.S_ .f32 0x7F800000#32)))
        (constantI Cert.Pre_finite_inputs.S_ 1 1#1) hr hu ValueIdx.ix0 = 1#1) :
    RealArr x := fun i => real_of_test (x i) (Host.reduce_andi_all _ _ hr hu _ h i)

/-- The precondition says `|x| < +∞` of every entry of the seven arrays: each entry is a real number.  The printed
    predicate is the conjunction of seven all-finite tests, one per array; a conjunction of one-bit words is 1 only when
    each word is, and each test then gives its array by `realArr_of_all`. -/
theorem real_of_pre [hP : Cert.Pre_finite_inputs.Facts] (m : (ℓ : Loc nD τ sig) → Buf (Elt Ideal) ℓ)
    (hpre : Cert.Pre_KernelIdeal m) (c : Dev nD) :
    RealArr (argX m c) ∧ RealArr (argB m c) ∧ RealArr (argC m c) ∧ RealArr (argG m c)
      ∧ RealArr (argBi m c) ∧ RealArr (argCi m c) ∧ RealArr (argGi m c) := by
  have h := congrFun (hpre c) ValueIdx.ix0
  dsimp only [Cert.Pre_finite_inputs.fn, Cert.Pre_finite_inputs.fn_part1, andi] at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨realArr_of_all _ _ _ _ h0, realArr_of_all _ _ _ _ h1, realArr_of_all _ _ _ _ h2, realArr_of_all _ _ _ _ h3,
    realArr_of_all _ _ _ _ h4, realArr_of_all _ _ _ _ h5, realArr_of_all _ _ _ _ h6⟩

end Cert.Tucker

end
-- ==== Proof.lean ====
/-
  The kernel computes a Tucker-style encode and decode of each row of the data matrix with the two Kronecker
  factors applied one after the other (six small matrix products and two re-layings per block of 32 rows); the
  reference forms the two Kronecker matrices explicitly and multiplies by them.

  On the extended reals, entry by entry:
    * the kernel program's result array is `kerArr` of the seven arguments (Proof/KernelArray.lean: the body's stored
      value read at an index, Proof/KernelBody.lean; the six small operands the host lines prepare,
      Proof/KernelHost.lean; the 64 row blocks tile the array);
    * the reference program's result array is `specArr` of the seven arguments (Proof/Reference.lean);
    * where every argument entry is a real number, which is what the precondition says (Proof/Finite.lean), the two are
      equal: both are finite sums of products of reals, and distributivity with the bijection between a pair `(a, b)`
      and the position `a · n + b` turns one into the other (Proof/Algebra.lean).  Finiteness is needed: on the extended
      reals a product does not distribute over a sum with infinite terms.
  The idealized kernel is the kernel's own text read on the extended reals (no rewrite was applied), so `preserves` holds
  trivially; the three frames are the generated frame runs, the reference's being its run with the result dropped.
-/
import proofs.«139005_j67740224193011_1_alg».proof.Defs
import proofs.«139005_j67740224193011_1_alg».proof.Proof.Gen.Kernel
import proofs.«139005_j67740224193011_1_alg».proof.Proof.Gen.Kernel.Skeleton
import proofs.«139005_j67740224193011_1_alg».proof.Proof.Gen.Kernel.Launch
import proofs.«139005_j67740224193011_1_alg».proof.Proof.Gen.Kernel.Points
import proofs.«139005_j67740224193011_1_alg».proof.Proof.Gen.Kernel.Frame
import proofs.«139005_j67740224193011_1_alg».proof.Proof.Gen.KernelIdeal
import proofs.«139005_j67740224193011_1_alg».proof.Proof.Gen.KernelIdeal.Skeleton
import proofs.«139005_j67740224193011_1_alg».proof.Proof.Gen.KernelIdeal.Launch
import proofs.«139005_j67740224193011_1_alg».proof.Proof.Gen.KernelIdeal.Points
import proofs.«139005_j67740224193011_1_alg».proof.Proof.Gen.KernelIdeal.Frame
import proofs.«139005_j67740224193011_1_alg».proof.Proof.Gen.ReferenceIdeal
import proofs.«139005_j67740224193011_1_alg».proof.Proof.Gen.Pre_finite_inputs
import proofs.«139005_j67740224193011_1_alg».proof.Proof.Gen.KernelIdeal.Value
import proofs.«139005_j67740224193011_1_alg».proof.Proof.Gen.ReferenceIdeal.Run
import proofs.«139005_j67740224193011_1_alg».proof.Proof.Gen.ReferenceIdeal.Read
import proofs.«139005_j67740224193011_1_alg».proof.Proof.KernelArray
import proofs.«139005_j67740224193011_1_alg».proof.Proof.Reference
import proofs.«139005_j67740224193011_1_alg».proof.Proof.Algebra
import proofs.«139005_j67740224193011_1_alg».proof.Proof.Finite
import Idealize.ShloMosaic.Adequacy
import Idealize.ShloMosaic.Init

noncomputable section

namespace Cert.Proof

open Idealize.ShloMosaic Idealize.ShloMosaic.TcCoe Idealize.SL.Sem Cert.Tucker

/-- Where every entry of the seven arrays is real, the kernel's spelling of the result array is the reference's. -/
theorem kerArr_eq_specArr (x : A2 2048 36864) (b c : A2 192 48) (g : A2 256 2304) (bi ci : A2 48 192) (gi : A2 2304 256)
    (hx : RealArr x) (hb : RealArr b) (hc : RealArr c) (hg : RealArr g) (hbi : RealArr bi) (hci : RealArr ci)
    (hgi : RealArr gi) : kerArr x b c g bi ci gi = specArr x b c g bi ci gi :=
  funext fun i => outKofArgs_eq_outR _ _ _ _ _ _ _ (real1_cur hx _) (real2_cur hb) (real2_cur hc) (real2_cur hg)
    (real2_cur hbi) (real2_cur hci) (real2_cur hgi) _

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the same result array: the kernel's at
    `kerArr` of the arguments, the reference's at `specArr` of them, and under the precondition these are equal. -/
theorem algebraic : Cert.algebraic_KernelIdeal_ReferenceIdeal := by
  intro m ρ m' ρ' hpre hagree
  refine ⟨fun c => kerOf m c, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨h0, h1, h2, h3, h4, h5, h6⟩ := real_of_pre m hpre c
  rw [Cert.ReferenceIdeal.Read.val_main_v43_eq, ref_eq, a0, a1, a2, a3, a4, a5, a6]
  exact (kerArr_eq_specArr _ _ _ _ _ _ _ h0 h1 h2 h3 h4 h5 h6).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
